-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S256x256 : Shape := ⟨2, ![256, 256]⟩
abbrev S256 : Shape := ⟨1, ![256]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  main_v53

def fn_part2 {F : FTy → Type} [FloatOps F] (main_arg7 : FVec F S256x256 .f32) (main_arg8 : FVec F S256 .f32) (main_arg9 : FVec F S256 .f32) (main_arg10 : FVec F S256 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_v48 main_v49 main_v50

def fn_part1 {F : FTy → Type} [FloatOps F] (main_arg4 : FVec F S256x256 .f32) (main_arg5 : FVec F S256x256 .f32) (main_arg6 : FVec F S256x256 .f32) (main_arg7 : FVec F S256x256 .f32) (main_arg8 : FVec F S256 .f32) (main_arg9 : FVec F S256 .f32) (main_arg10 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S65536x256 .f32) (main_arg1 : FVec F S65536x256 .f32) (main_arg2 : FVec F S256x256 .f32) (main_arg3 : FVec F S256x256 .f32) (main_arg4 : FVec F S256x256 .f32) (main_arg5 : FVec F S256x256 .f32) (main_arg6 : FVec F S256x256 .f32) (main_arg7 : FVec F S256x256 .f32) (main_arg8 : FVec F S256 .f32) (main_arg9 : FVec F S256 .f32) (main_arg10 : FVec F S256 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x256 .f32 := Host.absf main_arg1
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_arg10 main_v13 main_v16
-- ==== Kernel.lean ====
abbrev S65536x256 : Shape := ⟨2, ![65536, 256]⟩
abbrev S256x256 : Shape := ⟨2, ![256, 256]⟩
abbrev S256 : Shape := ⟨1, ![256]⟩
abbrev S256x768 : Shape := ⟨2, ![256, 768]⟩
abbrev S256x512 : Shape := ⟨2, ![256, 512]⟩
abbrev S1x256 : Shape := ⟨2, ![1, 256]⟩
abbrev S1024x256 : Shape := ⟨2, ![1024, 256]⟩
abbrev S1024x768 : Shape := ⟨2, ![1024, 768]⟩
abbrev S1024x512 : Shape := ⟨2, ![1024, 512]⟩

abbrev nBuf : Space → Nat
  | .hbm => 20
  | .vmem => 12
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256x256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256x768, .f32⟩
  | .hbm, ⟨12, _⟩ => ⟨S256x768, .bf16⟩
  | .hbm, ⟨13, _⟩ => ⟨S256x512, .f32⟩
  | .hbm, ⟨14, _⟩ => ⟨S256x512, .bf16⟩
  | .hbm, ⟨15, _⟩ => ⟨S256x256, .bf16⟩
  | .hbm, ⟨16, _⟩ => ⟨S1x256, .f32⟩
  | .hbm, ⟨17, _⟩ => ⟨S1x256, .f32⟩
  | .hbm, ⟨18, _⟩ => ⟨S1x256, .f32⟩
  | .hbm, ⟨19, _⟩ => ⟨S65536x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S256x768, .bf16⟩
  | .local _ .vmem, ⟨5, _⟩ => ⟨S256x512, .bf16⟩
  | .local _ .vmem, ⟨6, _⟩ => ⟨S256x256, .bf16⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1024x256, .f32⟩
  | .local _ .vmem, ⟨11, _⟩ => ⟨S1024x256, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  concatenates_S256x256_S256x256_S256x256_S256x768_d1 : Shape.Concatenates [S256x256, S256x256, S256x256] S256x768 1
  bitsLt_bf16_f32 : FTy.bits .bf16 < FTy.bits .f32
  concatenates_S256x256_S256x256_S256x512_d1 : Shape.Concatenates [S256x256, S256x256] S256x512 1
  shapeCasts_S256_S1x256 : S256.ShapeCasts S1x256
  inb_S1024x256_S1024x256_0_0 : ∀ a, (![0, 0] : Fin 2 → Nat) a + S1024x256.size a ≤ S1024x256.size a
  h_S1024x256 : 0 < S1024x256.numel
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S256x512_S256x512_0_0 : ∀ a, (![0, 0] : Fin 2 → Nat) a + S256x512.size a ≤ S256x512.size a
  h_S256x512 : 0 < S256x512.numel
  shapeCasts_S256x512_S256x512 : S256x512.ShapeCasts S256x512
  slices_S1024x768_o0_0_S1024x256 : S1024x768.Slices ![0, 0] S1024x256
  slices_S1024x512_o0_0_S1024x256 : S1024x512.Slices ![0, 0] S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  slices_S1024x768_o0_256_S1024x256 : S1024x768.Slices ![0, 256] S1024x256
  slices_S1024x512_o0_256_S1024x256 : S1024x512.Slices ![0, 256] S1024x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S1024x768_o0_512_S1024x256 : S1024x768.Slices ![0, 512] S1024x256
  dot_S1024x256_S256x768_S1024x768_1_0_0_1_n_n_wf : DotDims.WF S1024x256 S256x768 S1024x768 [1] [0] [0] [1] [] []
  dot_S1024x256_S256x512_S1024x512_1_0_0_1_n_n_wf : DotDims.WF S1024x256 S256x512 S1024x512 [1] [0] [0] [1] [] []
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S65536x256.size a
  hwx0_0 : ∀ i : grid0.Coords, EltTy.bits .f32 = 32 ∨ (Rect.block (s := S65536x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S65536x256.size a
  hwx0_1 : ∀ i : grid0.Coords, EltTy.bits .f32 = 32 ∨ (Rect.block (s := S65536x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x768.size a ≤ S256x768.size a
  hwx0_2 : ∀ i : grid0.Coords, EltTy.bits .bf16 = 32 ∨ (Rect.block (s := S256x768) S256x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .bf16 = 32 ∨ (Rect.block (s := S256x512) S256x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x256.size a ≤ S65536x256.size a
  hwx0_8 : ∀ i : grid0.Coords, EltTy.bits .f32 = 32 ∨ (Rect.block (s := S65536x256) S1024x256.size (cc0_transform_8 i) (hinb0_8 i)).WholeWords (EltTy.packing .f32)

variable [Facts₀]

def dot_S1024x256_S256x768_S1024x768_1_0_0_1_n_n : DotDims S1024x256 S256x768 S1024x768 where
  lhsContracting := [1]
  rhsContracting := [0]
  lhsNonContracting := [0]
  rhsNonContracting := [1]
  lhsBatch := []
  rhsBatch := []
  wf := dot_S1024x256_S256x768_S1024x768_1_0_0_1_n_n_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1024x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S65536x256 : Shape := ⟨2, ![65536, 256]⟩
abbrev S256x256 : Shape := ⟨2, ![256, 256]⟩
abbrev S256 : Shape := ⟨1, ![256]⟩
abbrev S256x768 : Shape := ⟨2, ![256, 768]⟩
abbrev S256x512 : Shape := ⟨2, ![256, 512]⟩
abbrev S65536x768 : Shape := ⟨2, ![65536, 768]⟩
abbrev S65536x512 : Shape := ⟨2, ![65536, 512]⟩
abbrev S1x256 : Shape := ⟨2, ![1, 256]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256x256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256x768, .f32⟩
  | .hbm, ⟨12, _⟩ => ⟨S256x512, .f32⟩
  | .hbm, ⟨13, _⟩ => ⟨S65536x768, .f32⟩
  | .hbm, ⟨14, _⟩ => ⟨S65536x512, .f32⟩
  | .hbm, ⟨15, _⟩ => ⟨S65536x256, .f32⟩
  | .hbm, ⟨16, _⟩ => ⟨S65536x256, .f32⟩
  | .hbm, ⟨17, _⟩ => ⟨S65536x256, .f32⟩
  | .hbm, ⟨18, _⟩ => ⟨S1x256, .f32⟩
  | .hbm, ⟨19, _⟩ => ⟨S65536x256, .f32⟩
  | .hbm, ⟨20, _⟩ => ⟨S65536x256, .f32⟩
  | .hbm, ⟨21, _⟩ => ⟨S65536x256, .f32⟩
  | .hbm, ⟨22, _⟩ => ⟨S65536x256, .f32⟩
  | .hbm, ⟨23, _⟩ => ⟨S_, .f32⟩
  | .hbm, ⟨24, _⟩ => ⟨S65536x256, .f32⟩
  | .hbm, ⟨25, _⟩ => ⟨S65536x256, .f32⟩
  | .hbm, ⟨26, _⟩ => ⟨S_, .f32⟩
  | .hbm, ⟨27, _⟩ => ⟨S65536x256, .f32⟩
  | .hbm, ⟨28, _⟩ => ⟨S65536x256, .f32⟩
  | .hbm, ⟨29, _⟩ => ⟨S65536x256, .f32⟩
  | .hbm, ⟨30, _⟩ => ⟨S65536x256, .f32⟩
  | .hbm, ⟨31, _⟩ => ⟨S65536x256, .f32⟩
  | .hbm, ⟨32, _⟩ => ⟨S1x256, .f32⟩
  | .hbm, ⟨33, _⟩ => ⟨S65536x256, .f32⟩
  | .hbm, ⟨34, _⟩ => ⟨S65536x256, .f32⟩
  | .hbm, ⟨35, _⟩ => ⟨S65536x256, .f32⟩
  | .hbm, ⟨36, _⟩ => ⟨S65536x256, .f32⟩
  | .hbm, ⟨37, _⟩ => ⟨S_, .f32⟩
  | .hbm, ⟨38, _⟩ => ⟨S65536x256, .f32⟩
  | .hbm, ⟨39, _⟩ => ⟨S65536x256, .f32⟩
  | .hbm, ⟨40, _⟩ => ⟨S_, .f32⟩
  | .hbm, ⟨41, _⟩ => ⟨S65536x256, .f32⟩
  | .hbm, ⟨42, _⟩ => ⟨S65536x256, .f32⟩
  | .hbm, ⟨43, _⟩ => ⟨S65536x256, .f32⟩
  | .hbm, ⟨44, _⟩ => ⟨S65536x256, .f32⟩
  | .hbm, ⟨45, _⟩ => ⟨S65536x256, .f32⟩
  | .hbm, ⟨46, _⟩ => ⟨S65536x256, .f32⟩
  | .hbm, ⟨47, _⟩ => ⟨S1x256, .f32⟩
  | .hbm, ⟨48, _⟩ => ⟨S65536x256, .f32⟩
  | .hbm, ⟨49, _⟩ => ⟨S65536x256, .f32⟩
  | .hbm, ⟨50, _⟩ => ⟨S65536x256, .f32⟩
  | .hbm, ⟨51, _⟩ => ⟨S65536x256, .f32⟩
  | .hbm, ⟨52, _⟩ => ⟨S65536x256, .f32⟩
  | .hbm, ⟨53, _⟩ => ⟨S65536x256, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_1 : Ref sig .tc := ⟨.hbm, 37, rfl⟩
abbrev main_v24 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]

class Facts₀ : Prop where
  concatenates_S256x256_S256x256_S256x256_S256x768_d1 : Shape.Concatenates [S256x256, S256x256, S256x256] S256x768 1
  concatenates_S256x256_S256x256_S256x512_d1 : Shape.Concatenates [S256x256, S256x256] S256x512 1
  slices_S65536x768_S65536x256_0_0 : S65536x768.Slices ![0, 0] S65536x256
  slices_S65536x512_S65536x256_0_0 : S65536x512.Slices ![0, 0] S65536x256
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  slices_S65536x768_S65536x256_0_256 : S65536x768.Slices ![0, 256] S65536x256
  slices_S65536x512_S65536x256_0_256 : S65536x512.Slices ![0, 256] S65536x256
  slices_S65536x768_S65536x256_0_512 : S65536x768.Slices ![0, 512] S65536x256
  dot_S65536x256_S256x768_S65536x768_1_0_0_1_n_n_wf : DotDims.WF S65536x256 S256x768 S65536x768 [1] [0] [0] [1] [] []
  dot_S65536x256_S256x512_S65536x512_1_0_0_1_n_n_wf : DotDims.WF S65536x256 S256x512 S65536x512 [1] [0] [0] [1] [] []
  dot_S65536x256_S256x256_S65536x256_1_0_0_1_n_n_wf : DotDims.WF S65536x256 S256x256 S65536x256 [1] [0] [0] [1] [] []

variable [Facts₀]

def dot_S65536x256_S256x768_S65536x768_1_0_0_1_n_n : DotDims S65536x256 S256x768 S65536x768 where
  lhsContracting := [1]
  rhsContracting := [0]
  lhsNonContracting := [0]
  rhsNonContracting := [1]
  lhsBatch := []
  rhsBatch := []
  wf := dot_S65536x256_S256x768_S65536x768_1_0_0_1_n_n_wf
def dot_S65536x256_S256x512_S65536x512_1_0_0_1_n_n : DotDims S65536x256 S256x512 S65536x512 where
  lhsContracting := [1]
  rhsContracting := [0]
  lhsNonContracting := [0]
  rhsNonContracting := [1]
  lhsBatch := []
  rhsBatch := []
  wf := dot_S65536x256_S256x512_S65536x512_1_0_0_1_n_n_wf
def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf

class Facts : Prop extends Facts₀ where

variable [Facts]
-- ==== Proof.FrameKernel.lean ====
/-
  The frame of this kernel program: every weakly fair execution of @main terminates without a fault and
  leaves the eleven argument arrays as they were.

  @main is eight host operations and then one pipelined region. The host operations write only buffers of their
  own: the three input weight matrices laid side by side along the columns (256 x 768), the two hidden weight
  matrices laid side by side (256 x 512), three changes of float format, and the three bias vectors reshaped to one
  row each; none of them writes an argument, so the region finds every argument as launched. The region runs the
  body at 64 grid points; point t stages rows [1024 t, 1024 t + 1024) of the two state arrays (fetched at every
  point), the three weight matrices and the three bias rows whole (fetched once, at the first point, and left in
  place), and writes one 1024 x 256 block of the result back at every point. The body only loads its eight input
  blocks through whole-buffer rectangles and stores one value, a pure function of those loads, over the whole output
  block; so after the body the output buffer is that function of the input blocks, whatever it held before, and the
  input buffers are unchanged. With that as the proof data of the pipeline, the library's frame run gives every
  array of the pipeline at what the proof data computes and every other unscoped buffer at what the region found,
  and an argument array is either a staged input (kept) or no window's array (kept).
  Stated at any float instance F.
-/
import proofs.«145229_j75531294867991_1_alg».proof.Proof.Gen.Kernel.Launch
import proofs.«145229_j75531294867991_1_alg».proof.Proof.Gen.Kernel.Skeleton
import proofs.«145229_j75531294867991_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the eight host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Each host operation writes one buffer, and that buffer is not the argument in question. -/
local macro "not_written" : tactic => `(tactic| (
  simp only [hostOps0, List.Forall, StableHlo.nary_writes, StableHlo.unary_writes, StableHlo.binary_writes,
    StableHlo.reshape_writes, Finset.mem_singleton]
  repeat' apply And.intro
  all_goals exact StableHlo.devRef_ne_of_ne (by decide)))

theorem V_main_arg0 (c : Dev nD) : V m c main_arg0 = m ((c : Thread nD τ).loc main_arg0) :=
  StableHlo.after_of_forall_not_mem (b := Proc.devRef .tc main_arg0) _ _ (List.forall_iff_forall_mem.mp (by not_written))
theorem V_main_arg1 (c : Dev nD) : V m c main_arg1 = m ((c : Thread nD τ).loc main_arg1) :=
  StableHlo.after_of_forall_not_mem (b := Proc.devRef .tc main_arg1) _ _ (List.forall_iff_forall_mem.mp (by not_written))
theorem V_main_arg2 (c : Dev nD) : V m c main_arg2 = m ((c : Thread nD τ).loc main_arg2) :=
  StableHlo.after_of_forall_not_mem (b := Proc.devRef .tc main_arg2) _ _ (List.forall_iff_forall_mem.mp (by not_written))
theorem V_main_arg3 (c : Dev nD) : V m c main_arg3 = m ((c : Thread nD τ).loc main_arg3) :=
  StableHlo.after_of_forall_not_mem (b := Proc.devRef .tc main_arg3) _ _ (List.forall_iff_forall_mem.mp (by not_written))
theorem V_main_arg4 (c : Dev nD) : V m c main_arg4 = m ((c : Thread nD τ).loc main_arg4) :=
  StableHlo.after_of_forall_not_mem (b := Proc.devRef .tc main_arg4) _ _ (List.forall_iff_forall_mem.mp (by not_written))
theorem V_main_arg5 (c : Dev nD) : V m c main_arg5 = m ((c : Thread nD τ).loc main_arg5) :=
  StableHlo.after_of_forall_not_mem (b := Proc.devRef .tc main_arg5) _ _ (List.forall_iff_forall_mem.mp (by not_written))
theorem V_main_arg6 (c : Dev nD) : V m c main_arg6 = m ((c : Thread nD τ).loc main_arg6) :=
  StableHlo.after_of_forall_not_mem (b := Proc.devRef .tc main_arg6) _ _ (List.forall_iff_forall_mem.mp (by not_written))
theorem V_main_arg7 (c : Dev nD) : V m c main_arg7 = m ((c : Thread nD τ).loc main_arg7) :=
  StableHlo.after_of_forall_not_mem (b := Proc.devRef .tc main_arg7) _ _ (List.forall_iff_forall_mem.mp (by not_written))
theorem V_main_arg8 (c : Dev nD) : V m c main_arg8 = m ((c : Thread nD τ).loc main_arg8) :=
  StableHlo.after_of_forall_not_mem (b := Proc.devRef .tc main_arg8) _ _ (List.forall_iff_forall_mem.mp (by not_written))
theorem V_main_arg9 (c : Dev nD) : V m c main_arg9 = m ((c : Thread nD τ).loc main_arg9) :=
  StableHlo.after_of_forall_not_mem (b := Proc.devRef .tc main_arg9) _ _ (List.forall_iff_forall_mem.mp (by not_written))
theorem V_main_arg10 (c : Dev nD) : V m c main_arg10 = m ((c : Thread nD τ).loc main_arg10) :=
  StableHlo.after_of_forall_not_mem (b := Proc.devRef .tc main_arg10) _ _ (List.forall_iff_forall_mem.mp (by not_written))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, fetched there or not (where it is not
    fetched its block index has not moved), for any proof data whose array is the region-entry contents and whose
    body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The two state arrays are staged inputs, so they end at their entry contents; the nine other arguments are no
    window's array, so the run leaves them as the region found them; and the region found every argument as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## The body's accesses: every load and the store take their buffer whole -/

abbrev rRows : Rect S1024x256 := Rect.unit (s := S1024x256) ![0, 0] S1024x256.size inb_S1024x256_S1024x256_0_0
abbrev rW : Rect S256x768 := Rect.unit (s := S256x768) ![0, 0] S256x768.size inb_S256x768_S256x768_0_0
abbrev rU : Rect S256x512 := Rect.unit (s := S256x512) ![0, 0] S256x512.size inb_S256x512_S256x512_0_0
abbrev rUh : Rect S256x256 := Rect.unit (s := S256x256) ![0, 0] S256x256.size inb_S256x256_S256x256_0_0
abbrev rBias : Rect S1x256 := Rect.unit (s := S1x256) ![0, 0] S1x256.size inb_S1x256_S1x256_0_0

/-! ## What the body leaves in the output window's buffer -/

/-- The output buffer after the body, from the eight input blocks (hidden state, input state, input weights, hidden
    weights of the two gates, hidden weights of the candidate, and the three bias rows): its one store, of the
    candidate plus the update gate times (state minus candidate), over the whole block. -/
def out0_8 (x0 : Vec F S1024x256 .f32) (x1 : Vec F S1024x256 .f32) (x2 : Vec F S256x768 .bf16) (x3 : Vec F S256x512 .bf16)
    (x4 : Vec F S256x256 .bf16) (x5 : Vec F S1x256 .f32) (x6 : Vec F S1x256 .f32) (x7 : Vec F S1x256 .f32) : Vec F S1024x256 .f32 :=
  View.canon [⟨rRows, k0_pay1
    (k0_pay4 (View.ld x0 rRows) (View.ld x1 rRows) (View.ld x2 rW) (View.ld x3 rU) (View.ld x5 rBias) (View.ld x4 rUh) (View.ld x7 rBias))
    (k0_pay5 (View.ld x0 rRows) (View.ld x1 rRows) (View.ld x2 rW) (View.ld x3 rU) (View.ld x5 rBias) (View.ld x6 rBias) (View.ld x4 rUh) (View.ld x7 rBias))⟩]

/-- The one store covers the buffer. -/
theorem cover0_8 (p0 : Vec F S1024x256 .f32) (y : S1024x256.Idx) :
    ∃ pc ∈ ([⟨rRows, p0⟩] : List (View.Piece (Elt F) S1024x256 .f32)), y ∈ pc.1.set :=
  View.cover_of_tiled [⟨rRows, p0⟩] S1024x256.size (by rfl) y

/-! ## The body's triple -/

set_option maxHeartbeats 1000000 in
/-- The body on whole staging memrefs, the inputs' at contents `x0 … x7` and the output's at anything, runs to the
    continuation holding the inputs' as they were and the output's at `out0_8` of the inputs'. -/
theorem sound_kernel (c : Dev nD) (E : Set ℕ) (i : grid0.Coords)
    (arg1 : Memref sig .tc .vmem S1024x256 .f32) (harg1 : arg1.IsWhole) (arg2 : Memref sig .tc .vmem S1024x256 .f32) (harg2 : arg2.IsWhole)
    (arg3 : Memref sig .tc .vmem S256x768 .bf16) (harg3 : arg3.IsWhole) (arg4 : Memref sig .tc .vmem S256x512 .bf16) (harg4 : arg4.IsWhole)
    (arg5 : Memref sig .tc .vmem S256x256 .bf16) (harg5 : arg5.IsWhole) (arg6 : Memref sig .tc .vmem S1x256 .f32) (harg6 : arg6.IsWhole)
    (arg7 : Memref sig .tc .vmem S1x256 .f32) (harg7 : arg7.IsWhole) (arg8 : Memref sig .tc .vmem S1x256 .f32) (harg8 : arg8.IsWhole)
    (arg9 : Memref sig .tc .vmem S1024x256 .f32) (harg9 : arg9.IsWhole)
    (x0 : Vec F S1024x256 .f32) (x1 : Vec F S1024x256 .f32) (x2 : Vec F S256x768 .bf16) (x3 : Vec F S256x512 .bf16)
    (x4 : Vec F S256x256 .bf16) (x5 : Vec F S1x256 .f32) (x6 : Vec F S1x256 .f32) (x7 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (out0_8 x0 x1 x2 x3 x4 x5 x6 x7)) -∗ K ⟨⟩))
      ⊢ wp frame (wpE (defs₀ (F := F)) Variants.none c none) E
          (cc0__lambda_ i arg1 harg1 arg2 harg2 arg3 harg3 arg4 harg4 arg5 harg5 arg6 harg6 arg7 harg7 arg8 harg8 arg9 harg9) K := by
  simp only [cc0__lambda__eq_skeleton]; unfold cc0__lambda__skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover0_8 _)

/-! ## The pipeline's proof data -/

/-- The proof data of the pipeline on core `c`: the arrays as the region finds them; after the body at point `t`
    each input's buffer at its block and the output's at `out0_8` of the input blocks; the invariant the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t
    = out0_8 (iblk m c 0 t) (iblk m c 1 t) (iblk m c 2 t) (iblk m c 3 t) (iblk m c 4 t) (iblk m c 5 t) (iblk m c 6 t) (iblk m c 7 t) := by
  dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: the inputs' memrefs hold their blocks, so `sound_kernel` applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what
    the library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim's statement, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Hand

end
-- ==== Proof.FrameKernelIdeal.lean ====
/-
  The frame of this kernel program: every weakly fair execution of @main terminates without a fault and
  leaves the eleven argument arrays as they were.

  @main is eight host operations and then one pipelined region. The host operations write only buffers of their
  own: the three input weight matrices laid side by side along the columns (256 x 768), the two hidden weight
  matrices laid side by side (256 x 512), three changes of float format, and the three bias vectors reshaped to one
  row each; none of them writes an argument, so the region finds every argument as launched. The region runs the
  body at 64 grid points; point t stages rows [1024 t, 1024 t + 1024) of the two state arrays (fetched at every
  point), the three weight matrices and the three bias rows whole (fetched once, at the first point, and left in
  place), and writes one 1024 x 256 block of the result back at every point. The body only loads its eight input
  blocks through whole-buffer rectangles and stores one value, a pure function of those loads, over the whole output
  block; so after the body the output buffer is that function of the input blocks, whatever it held before, and the
  input buffers are unchanged. With that as the proof data of the pipeline, the library's frame run gives every
  array of the pipeline at what the proof data computes and every other unscoped buffer at what the region found,
  and an argument array is either a staged input (kept) or no window's array (kept).
  Stated at any float instance F.
-/
import proofs.«145229_j75531294867991_1_alg».proof.Proof.Gen.KernelIdeal.Launch
import proofs.«145229_j75531294867991_1_alg».proof.Proof.Gen.KernelIdeal.Skeleton
import proofs.«145229_j75531294867991_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the eight host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Each host operation writes one buffer, and that buffer is not the argument in question. -/
local macro "not_written" : tactic => `(tactic| (
  simp only [hostOps0, List.Forall, StableHlo.nary_writes, StableHlo.unary_writes, StableHlo.binary_writes,
    StableHlo.reshape_writes, Finset.mem_singleton]
  repeat' apply And.intro
  all_goals exact StableHlo.devRef_ne_of_ne (by decide)))

theorem V_main_arg0 (c : Dev nD) : V m c main_arg0 = m ((c : Thread nD τ).loc main_arg0) :=
  StableHlo.after_of_forall_not_mem (b := Proc.devRef .tc main_arg0) _ _ (List.forall_iff_forall_mem.mp (by not_written))
theorem V_main_arg1 (c : Dev nD) : V m c main_arg1 = m ((c : Thread nD τ).loc main_arg1) :=
  StableHlo.after_of_forall_not_mem (b := Proc.devRef .tc main_arg1) _ _ (List.forall_iff_forall_mem.mp (by not_written))
theorem V_main_arg2 (c : Dev nD) : V m c main_arg2 = m ((c : Thread nD τ).loc main_arg2) :=
  StableHlo.after_of_forall_not_mem (b := Proc.devRef .tc main_arg2) _ _ (List.forall_iff_forall_mem.mp (by not_written))
theorem V_main_arg3 (c : Dev nD) : V m c main_arg3 = m ((c : Thread nD τ).loc main_arg3) :=
  StableHlo.after_of_forall_not_mem (b := Proc.devRef .tc main_arg3) _ _ (List.forall_iff_forall_mem.mp (by not_written))
theorem V_main_arg4 (c : Dev nD) : V m c main_arg4 = m ((c : Thread nD τ).loc main_arg4) :=
  StableHlo.after_of_forall_not_mem (b := Proc.devRef .tc main_arg4) _ _ (List.forall_iff_forall_mem.mp (by not_written))
theorem V_main_arg5 (c : Dev nD) : V m c main_arg5 = m ((c : Thread nD τ).loc main_arg5) :=
  StableHlo.after_of_forall_not_mem (b := Proc.devRef .tc main_arg5) _ _ (List.forall_iff_forall_mem.mp (by not_written))
theorem V_main_arg6 (c : Dev nD) : V m c main_arg6 = m ((c : Thread nD τ).loc main_arg6) :=
  StableHlo.after_of_forall_not_mem (b := Proc.devRef .tc main_arg6) _ _ (List.forall_iff_forall_mem.mp (by not_written))
theorem V_main_arg7 (c : Dev nD) : V m c main_arg7 = m ((c : Thread nD τ).loc main_arg7) :=
  StableHlo.after_of_forall_not_mem (b := Proc.devRef .tc main_arg7) _ _ (List.forall_iff_forall_mem.mp (by not_written))
theorem V_main_arg8 (c : Dev nD) : V m c main_arg8 = m ((c : Thread nD τ).loc main_arg8) :=
  StableHlo.after_of_forall_not_mem (b := Proc.devRef .tc main_arg8) _ _ (List.forall_iff_forall_mem.mp (by not_written))
theorem V_main_arg9 (c : Dev nD) : V m c main_arg9 = m ((c : Thread nD τ).loc main_arg9) :=
  StableHlo.after_of_forall_not_mem (b := Proc.devRef .tc main_arg9) _ _ (List.forall_iff_forall_mem.mp (by not_written))
theorem V_main_arg10 (c : Dev nD) : V m c main_arg10 = m ((c : Thread nD τ).loc main_arg10) :=
  StableHlo.after_of_forall_not_mem (b := Proc.devRef .tc main_arg10) _ _ (List.forall_iff_forall_mem.mp (by not_written))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, fetched there or not (where it is not
    fetched its block index has not moved), for any proof data whose array is the region-entry contents and whose
    body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The two state arrays are staged inputs, so they end at their entry contents; the nine other arguments are no
    window's array, so the run leaves them as the region found them; and the region found every argument as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## The body's accesses: every load and the store take their buffer whole -/

abbrev rRows : Rect S1024x256 := Rect.unit (s := S1024x256) ![0, 0] S1024x256.size inb_S1024x256_S1024x256_0_0
abbrev rW : Rect S256x768 := Rect.unit (s := S256x768) ![0, 0] S256x768.size inb_S256x768_S256x768_0_0
abbrev rU : Rect S256x512 := Rect.unit (s := S256x512) ![0, 0] S256x512.size inb_S256x512_S256x512_0_0
abbrev rUh : Rect S256x256 := Rect.unit (s := S256x256) ![0, 0] S256x256.size inb_S256x256_S256x256_0_0
abbrev rBias : Rect S1x256 := Rect.unit (s := S1x256) ![0, 0] S1x256.size inb_S1x256_S1x256_0_0

/-! ## What the body leaves in the output window's buffer -/

/-- The output buffer after the body, from the eight input blocks (hidden state, input state, input weights, hidden
    weights of the two gates, hidden weights of the candidate, and the three bias rows): its one store, of the
    candidate plus the update gate times (state minus candidate), over the whole block. -/
def out0_8 (x0 : Vec F S1024x256 .f32) (x1 : Vec F S1024x256 .f32) (x2 : Vec F S256x768 .bf16) (x3 : Vec F S256x512 .bf16)
    (x4 : Vec F S256x256 .bf16) (x5 : Vec F S1x256 .f32) (x6 : Vec F S1x256 .f32) (x7 : Vec F S1x256 .f32) : Vec F S1024x256 .f32 :=
  View.canon [⟨rRows, k0_pay1
    (k0_pay4 (View.ld x0 rRows) (View.ld x1 rRows) (View.ld x2 rW) (View.ld x3 rU) (View.ld x5 rBias) (View.ld x4 rUh) (View.ld x7 rBias))
    (k0_pay5 (View.ld x0 rRows) (View.ld x1 rRows) (View.ld x2 rW) (View.ld x3 rU) (View.ld x5 rBias) (View.ld x6 rBias) (View.ld x4 rUh) (View.ld x7 rBias))⟩]

/-- The one store covers the buffer. -/
theorem cover0_8 (p0 : Vec F S1024x256 .f32) (y : S1024x256.Idx) :
    ∃ pc ∈ ([⟨rRows, p0⟩] : List (View.Piece (Elt F) S1024x256 .f32)), y ∈ pc.1.set :=
  View.cover_of_tiled [⟨rRows, p0⟩] S1024x256.size (by rfl) y

/-! ## The body's triple -/

set_option maxHeartbeats 1000000 in
/-- The body on whole staging memrefs, the inputs' at contents `x0 … x7` and the output's at anything, runs to the
    continuation holding the inputs' as they were and the output's at `out0_8` of the inputs'. -/
theorem sound_kernel (c : Dev nD) (E : Set ℕ) (i : grid0.Coords)
    (arg1 : Memref sig .tc .vmem S1024x256 .f32) (harg1 : arg1.IsWhole) (arg2 : Memref sig .tc .vmem S1024x256 .f32) (harg2 : arg2.IsWhole)
    (arg3 : Memref sig .tc .vmem S256x768 .bf16) (harg3 : arg3.IsWhole) (arg4 : Memref sig .tc .vmem S256x512 .bf16) (harg4 : arg4.IsWhole)
    (arg5 : Memref sig .tc .vmem S256x256 .bf16) (harg5 : arg5.IsWhole) (arg6 : Memref sig .tc .vmem S1x256 .f32) (harg6 : arg6.IsWhole)
    (arg7 : Memref sig .tc .vmem S1x256 .f32) (harg7 : arg7.IsWhole) (arg8 : Memref sig .tc .vmem S1x256 .f32) (harg8 : arg8.IsWhole)
    (arg9 : Memref sig .tc .vmem S1024x256 .f32) (harg9 : arg9.IsWhole)
    (x0 : Vec F S1024x256 .f32) (x1 : Vec F S1024x256 .f32) (x2 : Vec F S256x768 .bf16) (x3 : Vec F S256x512 .bf16)
    (x4 : Vec F S256x256 .bf16) (x5 : Vec F S1x256 .f32) (x6 : Vec F S1x256 .f32) (x7 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (out0_8 x0 x1 x2 x3 x4 x5 x6 x7)) -∗ K ⟨⟩))
      ⊢ wp frame (wpE (defs₀ (F := F)) Variants.none c none) E
          (cc0__lambda_ i arg1 harg1 arg2 harg2 arg3 harg3 arg4 harg4 arg5 harg5 arg6 harg6 arg7 harg7 arg8 harg8 arg9 harg9) K := by
  simp only [cc0__lambda__eq_skeleton]; unfold cc0__lambda__skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover0_8 _)

/-! ## The pipeline's proof data -/

/-- The proof data of the pipeline on core `c`: the arrays as the region finds them; after the body at point `t`
    each input's buffer at its block and the output's at `out0_8` of the input blocks; the invariant the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t
    = out0_8 (iblk m c 0 t) (iblk m c 1 t) (iblk m c 2 t) (iblk m c 3 t) (iblk m c 4 t) (iblk m c 5 t) (iblk m c 6 t) (iblk m c 7 t) := by
  dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: the inputs' memrefs hold their blocks, so `sound_kernel` applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what
    the library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim's statement, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Hand

end
-- ==== Proof.Spec.lean ====
/-
  The gated recurrent cell, one output entry at a time, on the extended reals.

  For one row of the hidden state `jr` and one row of the input state `mr` (256 entries each), the three input
  weight matrices laid side by side `Wc` (256 x 768), the two gate weight matrices of the hidden state laid side by
  side `Uc` (256 x 512), the candidate's hidden weights `Uh` (256 x 256) and the three biases:
    input projection   x_j = sum_k mr_k Wc[k, j]              (j < 768)
    hidden projection  h_j = sum_k jr_k Uc[k, j]              (j < 512)
    reset gate         r_q = logistic (x_q + h_q + br_q)
    update gate        z_q = logistic (x_{256+q} + h_{256+q} + bz_q)
    candidate          c_q = tanh (x_{512+q} + sum_k (jr_k r_k) Uh[k, q] + bh_q)
    result             o_q = c_q + z_q (jr_q - c_q).
  The sums, sums of three terms and products are written in the one order and grouping both programs use, so no
  law of the extended reals is needed to meet either of them.
-/
import Idealize.ShloMosaic.PureOps.Ideal
import Idealize.ShloMosaic.PureOps.IdealRules
import Idealize.ShloMosaic.Lib.ValueIdx

noncomputable section

namespace Cert.GruSpec

open Idealize.ShloMosaic Idealize.ShloMosaic.ValueIdx

/-- The input projection of a row. -/
def xproj (mr : Fin 256 → EReal) (Wc : (⟨2, ![256, 768]⟩ : Shape).Idx → EReal) (j : Fin 768) : EReal :=
  ∑ k : Fin 256, mr k * Wc (ix2 k j)

/-- The hidden projection of a row. -/
def hproj (jr : Fin 256 → EReal) (Uc : (⟨2, ![256, 512]⟩ : Shape).Idx → EReal) (j : Fin 512) : EReal :=
  ∑ k : Fin 256, jr k * Uc (ix2 k j)

/-- The reset gate: columns [0, 256) of both projections. -/
def resetGate (jr mr : Fin 256 → EReal) (Wc : (⟨2, ![256, 768]⟩ : Shape).Idx → EReal) (Uc : (⟨2, ![256, 512]⟩ : Shape).Idx → EReal)
    (br : Fin 256 → EReal) (q : Fin 256) : EReal :=
  Ideal.logistic (xproj mr Wc ⟨q.val, by omega⟩ + hproj jr Uc ⟨q.val, by omega⟩ + br q)

/-- The update gate: columns [256, 512) of both projections. -/
def updateGate (jr mr : Fin 256 → EReal) (Wc : (⟨2, ![256, 768]⟩ : Shape).Idx → EReal) (Uc : (⟨2, ![256, 512]⟩ : Shape).Idx → EReal)
    (bz : Fin 256 → EReal) (q : Fin 256) : EReal :=
  Ideal.logistic (xproj mr Wc ⟨256 + q.val, by omega⟩ + hproj jr Uc ⟨256 + q.val, by omega⟩ + bz q)

/-- The candidate state: columns [512, 768) of the input projection plus the gated state times `Uh`. -/
def candidate (jr mr : Fin 256 → EReal) (Wc : (⟨2, ![256, 768]⟩ : Shape).Idx → EReal) (Uc : (⟨2, ![256, 512]⟩ : Shape).Idx → EReal)
    (Uh : (⟨2, ![256, 256]⟩ : Shape).Idx → EReal) (br bh : Fin 256 → EReal) (q : Fin 256) : EReal :=
  Ideal.tanh (xproj mr Wc ⟨512 + q.val, by omega⟩ + (∑ k : Fin 256, (jr k * resetGate jr mr Wc Uc br k) * Uh (ix2 k q)) + bh q)

/-- One entry of the new state. -/
def gruRow (jr mr : Fin 256 → EReal) (Wc : (⟨2, ![256, 768]⟩ : Shape).Idx → EReal) (Uc : (⟨2, ![256, 512]⟩ : Shape).Idx → EReal)
    (Uh : (⟨2, ![256, 256]⟩ : Shape).Idx → EReal) (br bz bh : Fin 256 → EReal) (q : Fin 256) : EReal :=
  candidate jr mr Wc Uc Uh br bh q + updateGate jr mr Wc Uc bz q * (jr q - candidate jr mr Wc Uc Uh br bh q)

/-- The whole result: entry (b, q) is the cell on row b of the two state arrays. -/
def gruOut (jh mg : (⟨2, ![65536, 256]⟩ : Shape).Idx → EReal) (Wc : (⟨2, ![256, 768]⟩ : Shape).Idx → EReal)
    (Uc : (⟨2, ![256, 512]⟩ : Shape).Idx → EReal) (Uh : (⟨2, ![256, 256]⟩ : Shape).Idx → EReal)
    (br bz bh : (⟨1, ![256]⟩ : Shape).Idx → EReal) : (⟨2, ![65536, 256]⟩ : Shape).Idx → EReal :=
  fun i => gruRow (fun k => jh (ix2 (i 0) k)) (fun k => mg (ix2 (i 0) k)) Wc Uc Uh
    (fun q => br (ix1 q)) (fun q => bz (ix1 q)) (fun q => bh (ix1 q)) (i 1)

/-- The bit pattern of 1.0 denotes 1. -/
theorem one_f32 : Ideal.ofBits .f32 0x3F800000#32 = (1 : EReal) := IdealRules.sign_bit.ideal_onePat .f32

/-- The host's spelling of the logistic function, 1 / (1 + exp (-x)) with the literal 1.0, is the logistic function. -/
theorem host_logistic (x : Ideal .f32) :
    FloatOps.hostDivf (Ideal.ofBits .f32 0x3F800000#32 : Ideal .f32)
      (FloatOps.addf (Ideal.ofBits .f32 0x3F800000#32 : Ideal .f32) (FloatOps.hostUnary .exp (FloatOps.hostNegf x)))
      = Ideal.logistic x := by
  rw [one_f32]; rfl

end Cert.GruSpec

end
-- ==== Proof.KernelPayload.lean ====
/-
  What the kernel body stores, read one entry at a time, is the gated recurrent cell of `Spec.lean` on the
  row of that entry within the block: the two products into a zero accumulator are the row's input and hidden
  projections, the three column slices pick the reset, update and candidate thirds, a one-row bias broadcast over
  the rows is the bias at the column, a change of float format is the identity on the extended reals, and the third
  product, of the state times the reset gate with the candidate's weights, is the sum in the candidate.
-/
import proofs.«145229_j75531294867991_1_alg».proof.Proof.Gen.KernelIdeal.Skeleton
import proofs.«145229_j75531294867991_1_alg».proof.Proof.Spec
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.TcCoe
open Idealize.ShloMosaic.ValueIdx Cert.GruSpec

/-! ### The product with a 256 x 768 right operand, read at an entry -/

/-- The left operand's row axis is the result's row. -/
theorem lhs768_0 (i : S1024x768.Idx) (q : dot_S1024x256_S256x768_S1024x768_1_0_0_1_n_n.contr.Idx) :
    (dot_S1024x256_S256x768_S1024x768_1_0_0_1_n_n.lhsIdx i q 0).val = (i 0).val := by
  unfold DotDims.lhsIdx
  rw [dif_neg (show ¬(0 : Fin S1024x256.rank) ∈ dot_S1024x256_S256x768_S1024x768_1_0_0_1_n_n.lhsBatch by decide), dif_pos (show (0 : Fin S1024x256.rank) ∈ dot_S1024x256_S256x768_S1024x768_1_0_0_1_n_n.lhsNonContracting by decide)]
  rfl
/-- The left operand's column axis is the summation index. -/
theorem lhs768_1 (i : S1024x768.Idx) (q : dot_S1024x256_S256x768_S1024x768_1_0_0_1_n_n.contr.Idx) :
    (dot_S1024x256_S256x768_S1024x768_1_0_0_1_n_n.lhsIdx i q 1).val = (q ⟨0, by decide⟩).val :=
  dot_S1024x256_S256x768_S1024x768_1_0_0_1_n_n.lhsIdx_val_of_single rfl i q
/-- The right operand's row axis is the summation index. -/
theorem rhs768_0 (i : S1024x768.Idx) (q : dot_S1024x256_S256x768_S1024x768_1_0_0_1_n_n.contr.Idx) :
    (dot_S1024x256_S256x768_S1024x768_1_0_0_1_n_n.rhsIdx i q 0).val = (q ⟨0, by decide⟩).val :=
  dot_S1024x256_S256x768_S1024x768_1_0_0_1_n_n.rhsIdx_val_of_single rfl i q
/-- The right operand's column axis is the result's column. -/
theorem rhs768_1 (i : S1024x768.Idx) (q : dot_S1024x256_S256x768_S1024x768_1_0_0_1_n_n.contr.Idx) :
    (dot_S1024x256_S256x768_S1024x768_1_0_0_1_n_n.rhsIdx i q 1).val = (i 1).val := by
  unfold DotDims.rhsIdx
  rw [dif_neg (show ¬(1 : Fin S256x768.rank) ∈ dot_S1024x256_S256x768_S1024x768_1_0_0_1_n_n.rhsBatch by decide), dif_pos (show (1 : Fin S256x768.rank) ∈ dot_S1024x256_S256x768_S1024x768_1_0_0_1_n_n.rhsNonContracting by decide)]
  rfl

/-- Entry (p, j) of the product into a zero accumulator is the sum over k of row p of the left operand times column j
    of the right operand. -/
theorem mat768_apply (y : FVec Ideal S1024x256 .bf16) (w : FVec Ideal S256x768 .bf16) (p : Fin 1024) (j : Fin 768) :
    matmul dot_S1024x256_S256x768_S1024x768_1_0_0_1_n_n none y w (constant (F := Ideal) S1024x768 .f32 0x00000000#32) (ix2 p j)
      = ∑ k : Fin 256, y (ix2 p k) * w (ix2 k j) := by
  show FloatOps.matmul dot_S1024x256_S256x768_S1024x768_1_0_0_1_n_n none y w (constant (F := Ideal) S1024x768 .f32 0x00000000#32) (ix2 p j) = _
  rw [Ideal.matmul_constant_zero_apply, ← Equiv.sum_comp (ValueIdx.contrEquiv1 dot_S1024x256_S256x768_S1024x768_1_0_0_1_n_n 256 rfl rfl).symm]
  refine Finset.sum_congr rfl fun k _ => ?_
  have hk := ValueIdx.contrEquiv1_symm_val dot_S1024x256_S256x768_S1024x768_1_0_0_1_n_n 256 rfl rfl k
  have el : dot_S1024x256_S256x768_S1024x768_1_0_0_1_n_n.lhsIdx (ix2 p j) ((ValueIdx.contrEquiv1 dot_S1024x256_S256x768_S1024x768_1_0_0_1_n_n 256 rfl rfl).symm k) = ix2 p k := funext fun a => Fin.ext (by
    match a with
    | ⟨0, _⟩ => exact lhs768_0 _ _
    | ⟨1, _⟩ => exact (lhs768_1 _ _).trans hk)
  have er : dot_S1024x256_S256x768_S1024x768_1_0_0_1_n_n.rhsIdx (ix2 p j) ((ValueIdx.contrEquiv1 dot_S1024x256_S256x768_S1024x768_1_0_0_1_n_n 256 rfl rfl).symm k) = ix2 k j := funext fun a => Fin.ext (by
    match a with
    | ⟨0, _⟩ => exact (rhs768_0 _ _).trans hk
    | ⟨1, _⟩ => exact rhs768_1 _ _)
  rw [el, er]

/-! ### The product with a 256 x 512 right operand, read at an entry -/

/-- The left operand's row axis is the result's row. -/
theorem lhs512_0 (i : S1024x512.Idx) (q : dot_S1024x256_S256x512_S1024x512_1_0_0_1_n_n.contr.Idx) :
    (dot_S1024x256_S256x512_S1024x512_1_0_0_1_n_n.lhsIdx i q 0).val = (i 0).val := by
  unfold DotDims.lhsIdx
  rw [dif_neg (show ¬(0 : Fin S1024x256.rank) ∈ dot_S1024x256_S256x512_S1024x512_1_0_0_1_n_n.lhsBatch by decide), dif_pos (show (0 : Fin S1024x256.rank) ∈ dot_S1024x256_S256x512_S1024x512_1_0_0_1_n_n.lhsNonContracting by decide)]
  rfl
/-- The left operand's column axis is the summation index. -/
theorem lhs512_1 (i : S1024x512.Idx) (q : dot_S1024x256_S256x512_S1024x512_1_0_0_1_n_n.contr.Idx) :
    (dot_S1024x256_S256x512_S1024x512_1_0_0_1_n_n.lhsIdx i q 1).val = (q ⟨0, by decide⟩).val :=
  dot_S1024x256_S256x512_S1024x512_1_0_0_1_n_n.lhsIdx_val_of_single rfl i q
/-- The right operand's row axis is the summation index. -/
theorem rhs512_0 (i : S1024x512.Idx) (q : dot_S1024x256_S256x512_S1024x512_1_0_0_1_n_n.contr.Idx) :
    (dot_S1024x256_S256x512_S1024x512_1_0_0_1_n_n.rhsIdx i q 0).val = (q ⟨0, by decide⟩).val :=
  dot_S1024x256_S256x512_S1024x512_1_0_0_1_n_n.rhsIdx_val_of_single rfl i q
/-- The right operand's column axis is the result's column. -/
theorem rhs512_1 (i : S1024x512.Idx) (q : dot_S1024x256_S256x512_S1024x512_1_0_0_1_n_n.contr.Idx) :
    (dot_S1024x256_S256x512_S1024x512_1_0_0_1_n_n.rhsIdx i q 1).val = (i 1).val := by
  unfold DotDims.rhsIdx
  rw [dif_neg (show ¬(1 : Fin S256x512.rank) ∈ dot_S1024x256_S256x512_S1024x512_1_0_0_1_n_n.rhsBatch by decide), dif_pos (show (1 : Fin S256x512.rank) ∈ dot_S1024x256_S256x512_S1024x512_1_0_0_1_n_n.rhsNonContracting by decide)]
  rfl

/-- Entry (p, j) of the product into a zero accumulator is the sum over k of row p of the left operand times column j
    of the right operand. -/
theorem mat512_apply (y : FVec Ideal S1024x256 .bf16) (w : FVec Ideal S256x512 .bf16) (p : Fin 1024) (j : Fin 512) :
    matmul dot_S1024x256_S256x512_S1024x512_1_0_0_1_n_n none y w (constant (F := Ideal) S1024x512 .f32 0x00000000#32) (ix2 p j)
      = ∑ k : Fin 256, y (ix2 p k) * w (ix2 k j) := by
  show FloatOps.matmul dot_S1024x256_S256x512_S1024x512_1_0_0_1_n_n none y w (constant (F := Ideal) S1024x512 .f32 0x00000000#32) (ix2 p j) = _
  rw [Ideal.matmul_constant_zero_apply, ← Equiv.sum_comp (ValueIdx.contrEquiv1 dot_S1024x256_S256x512_S1024x512_1_0_0_1_n_n 256 rfl rfl).symm]
  refine Finset.sum_congr rfl fun k _ => ?_
  have hk := ValueIdx.contrEquiv1_symm_val dot_S1024x256_S256x512_S1024x512_1_0_0_1_n_n 256 rfl rfl k
  have el : dot_S1024x256_S256x512_S1024x512_1_0_0_1_n_n.lhsIdx (ix2 p j) ((ValueIdx.contrEquiv1 dot_S1024x256_S256x512_S1024x512_1_0_0_1_n_n 256 rfl rfl).symm k) = ix2 p k := funext fun a => Fin.ext (by
    match a with
    | ⟨0, _⟩ => exact lhs512_0 _ _
    | ⟨1, _⟩ => exact (lhs512_1 _ _).trans hk)
  have er : dot_S1024x256_S256x512_S1024x512_1_0_0_1_n_n.rhsIdx (ix2 p j) ((ValueIdx.contrEquiv1 dot_S1024x256_S256x512_S1024x512_1_0_0_1_n_n 256 rfl rfl).symm k) = ix2 k j := funext fun a => Fin.ext (by
    match a with
    | ⟨0, _⟩ => exact (rhs512_0 _ _).trans hk
    | ⟨1, _⟩ => exact rhs512_1 _ _)
  rw [el, er]

/-! ### The product with a 256 x 256 right operand, read at an entry -/

/-- The left operand's row axis is the result's row. -/
theorem lhs256_0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
/-- The left operand's column axis is the summation index. -/
theorem lhs256_1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
/-- The right operand's row axis is the summation index. -/
theorem rhs256_0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
/-- The right operand's column axis is the result's column. -/
theorem rhs256_1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- Entry (p, j) of the product into a zero accumulator is the sum over k of row p of the left operand times column j
    of the right operand. -/
theorem mat256_apply (y : FVec Ideal S1024x256 .bf16) (w : FVec Ideal S256x256 .bf16) (p : Fin 1024) (j : Fin 256) :
    matmul dot_S1024x256_S256x256_S1024x256_1_0_0_1_n_n none y w (constant (F := Ideal) S1024x256 .f32 0x00000000#32) (ix2 p j)
      = ∑ k : Fin 256, y (ix2 p k) * w (ix2 k j) := by
  show FloatOps.matmul dot_S1024x256_S256x256_S1024x256_1_0_0_1_n_n none y w (constant (F := Ideal) S1024x256 .f32 0x00000000#32) (ix2 p j) = _
  rw [Ideal.matmul_constant_zero_apply, ← Equiv.sum_comp (ValueIdx.contrEquiv1 dot_S1024x256_S256x256_S1024x256_1_0_0_1_n_n 256 rfl rfl).symm]
  refine Finset.sum_congr rfl fun k _ => ?_
  have hk := ValueIdx.contrEquiv1_symm_val dot_S1024x256_S256x256_S1024x256_1_0_0_1_n_n 256 rfl rfl k
  have el : dot_S1024x256_S256x256_S1024x256_1_0_0_1_n_n.lhsIdx (ix2 p j) ((ValueIdx.contrEquiv1 dot_S1024x256_S256x256_S1024x256_1_0_0_1_n_n 256 rfl rfl).symm k) = ix2 p k := funext fun a => Fin.ext (by
    match a with
    | ⟨0, _⟩ => exact lhs256_0 _ _
    | ⟨1, _⟩ => exact (lhs256_1 _ _).trans hk)
  have er : dot_S1024x256_S256x256_S1024x256_1_0_0_1_n_n.rhsIdx (ix2 p j) ((ValueIdx.contrEquiv1 dot_S1024x256_S256x256_S1024x256_1_0_0_1_n_n 256 rfl rfl).symm k) = ix2 k j := funext fun a => Fin.ext (by
    match a with
    | ⟨0, _⟩ => exact (rhs256_0 _ _).trans hk
    | ⟨1, _⟩ => exact rhs256_1 _ _)
  rw [el, er]

/-! ### The column slices, read at an entry -/

/-- Columns [0, 256) of a 1024 x 768 array. -/
theorem slice768_0 {α : Type} (v : S1024x768.Idx → α) (h : S1024x768.Slices ![0, 0] S1024x256) (p : Fin 1024) (q : Fin 256) :
    extractStridedSlice S1024x256 ![0, 0] v h (ix2 p q) = v (ix2 p ⟨q.val, by omega⟩) :=
  extractStridedSlice_apply ![0, 0] v h (ix2 p q) (ix2 p ⟨q.val, by omega⟩) (fun a => match a with
    | ⟨0, _⟩ => by show p.val = 0 + p.val; omega
    | ⟨1, _⟩ => by show q.val = 0 + q.val; omega)

/-- Columns [256, 512) of a 1024 x 768 array. -/
theorem slice768_256 {α : Type} (v : S1024x768.Idx → α) (h : S1024x768.Slices ![0, 256] S1024x256) (p : Fin 1024) (q : Fin 256) :
    extractStridedSlice S1024x256 ![0, 256] v h (ix2 p q) = v (ix2 p ⟨256 + q.val, by omega⟩) :=
  extractStridedSlice_apply ![0, 256] v h (ix2 p q) (ix2 p ⟨256 + q.val, by omega⟩) (fun a => match a with
    | ⟨0, _⟩ => by show p.val = 0 + p.val; omega
    | ⟨1, _⟩ => by show 256 + q.val = 256 + q.val; omega)

/-- Columns [512, 768) of a 1024 x 768 array. -/
theorem slice768_512 {α : Type} (v : S1024x768.Idx → α) (h : S1024x768.Slices ![0, 512] S1024x256) (p : Fin 1024) (q : Fin 256) :
    extractStridedSlice S1024x256 ![0, 512] v h (ix2 p q) = v (ix2 p ⟨512 + q.val, by omega⟩) :=
  extractStridedSlice_apply ![0, 512] v h (ix2 p q) (ix2 p ⟨512 + q.val, by omega⟩) (fun a => match a with
    | ⟨0, _⟩ => by show p.val = 0 + p.val; omega
    | ⟨1, _⟩ => by show 512 + q.val = 512 + q.val; omega)

/-- Columns [0, 256) of a 1024 x 512 array. -/
theorem slice512_0 {α : Type} (v : S1024x512.Idx → α) (h : S1024x512.Slices ![0, 0] S1024x256) (p : Fin 1024) (q : Fin 256) :
    extractStridedSlice S1024x256 ![0, 0] v h (ix2 p q) = v (ix2 p ⟨q.val, by omega⟩) :=
  extractStridedSlice_apply ![0, 0] v h (ix2 p q) (ix2 p ⟨q.val, by omega⟩) (fun a => match a with
    | ⟨0, _⟩ => by show p.val = 0 + p.val; omega
    | ⟨1, _⟩ => by show q.val = 0 + q.val; omega)

/-- Columns [256, 512) of a 1024 x 512 array. -/
theorem slice512_256 {α : Type} (v : S1024x512.Idx → α) (h : S1024x512.Slices ![0, 256] S1024x256) (p : Fin 1024) (q : Fin 256) :
    extractStridedSlice S1024x256 ![0, 256] v h (ix2 p q) = v (ix2 p ⟨256 + q.val, by omega⟩) :=
  extractStridedSlice_apply ![0, 256] v h (ix2 p q) (ix2 p ⟨256 + q.val, by omega⟩) (fun a => match a with
    | ⟨0, _⟩ => by show p.val = 0 + p.val; omega
    | ⟨1, _⟩ => by show 256 + q.val = 256 + q.val; omega)

/-! ### A one-row bias broadcast over the rows -/

/-- Entry (p, q) of a 1 x 256 row repeated over 1024 rows is the row's entry q. -/
theorem bias_apply {α : Type} (b : S1x256.Idx → α) (h1 : S1x256.ShapeCasts S1x256) (h2 : S1x256.Broadcasts S1024x256)
    (p : Fin 1024) (q : Fin 256) :
    broadcastTo S1024x256 (shapeCast S1x256 b h1) h2 (ix2 p q) = b (ix2 0 q) := by
  rw [shapeCast_self]
  exact broadcastTo_apply b h2 (ix2 p q) (ix2 0 q) (fun a => match a with
    | ⟨0, _⟩ => (if_pos rfl).symm
    | ⟨1, _⟩ => (if_neg (show ¬(256 : ℕ) = 1 by decide)).symm)

/-! ### The two projections -/

/-- The first product of the body is the input projection of the row. -/
theorem pay2_apply (x1 : Vec Ideal S1024x256 .f32) (x2 : Vec Ideal S256x768 .bf16) (p : Fin 1024) (j : Fin 768) :
    k0_pay2 (F := Ideal) x1 x2 (ix2 p j) = xproj (fun k => x1 (ix2 p k)) x2 j := by
  unfold k0_pay2 xproj
  show matmul dot_S1024x256_S256x768_S1024x768_1_0_0_1_n_n none (truncf .bf16 x1 _) (shapeCast S256x768 x2 _)
    (constant (F := Ideal) S1024x768 .f32 0x00000000#32) (ix2 p j) = _
  rw [shapeCast_self, mat768_apply]
  rfl

/-- The second product of the body is the hidden projection of the row. -/
theorem pay3_apply (x0 : Vec Ideal S1024x256 .f32) (x3 : Vec Ideal S256x512 .bf16) (p : Fin 1024) (j : Fin 512) :
    k0_pay3 (F := Ideal) x0 x3 (ix2 p j) = hproj (fun k => x0 (ix2 p k)) x3 j := by
  unfold k0_pay3 hproj
  show matmul dot_S1024x256_S256x512_S1024x512_1_0_0_1_n_n none (truncf .bf16 x0 _) (shapeCast S256x512 x3 _)
    (constant (F := Ideal) S1024x512 .f32 0x00000000#32) (ix2 p j) = _
  rw [shapeCast_self, mat512_apply]
  rfl

/-! ### The gates -/

/-- The logistic function of the first thirds of the two projections plus the first bias is the reset gate. -/
theorem reset_apply (x0 x1 : Vec Ideal S1024x256 .f32) (x2 : Vec Ideal S256x768 .bf16) (x3 : Vec Ideal S256x512 .bf16)
    (x5 : Vec Ideal S1x256 .f32) (h1 : S1024x768.Slices ![0, 0] S1024x256) (h2 : S1024x512.Slices ![0, 0] S1024x256)
    (h3 : S1x256.ShapeCasts S1x256) (h4 : S1x256.Broadcasts S1024x256) (p : Fin 1024) (q : Fin 256) :
    logistic (addf (addf (extractStridedSlice S1024x256 ![0, 0] (k0_pay2 (F := Ideal) x1 x2) h1)
        (extractStridedSlice S1024x256 ![0, 0] (k0_pay3 (F := Ideal) x0 x3) h2))
        (broadcastTo S1024x256 (shapeCast S1x256 x5 h3) h4)) (ix2 p q)
      = resetGate (fun k => x0 (ix2 p k)) (fun k => x1 (ix2 p k)) x2 x3 (fun j => x5 (ix2 0 j)) q := by
  show Ideal.logistic (extractStridedSlice S1024x256 ![0, 0] (k0_pay2 (F := Ideal) x1 x2) h1 (ix2 p q)
    + extractStridedSlice S1024x256 ![0, 0] (k0_pay3 (F := Ideal) x0 x3) h2 (ix2 p q)
    + broadcastTo S1024x256 (shapeCast S1x256 x5 h3) h4 (ix2 p q)) = _
  rw [slice768_0, slice512_0, bias_apply, pay2_apply, pay3_apply]
  rfl

/-- The logistic function of the middle thirds of the two projections plus the second bias is the update gate. -/
theorem update_apply (x0 x1 : Vec Ideal S1024x256 .f32) (x2 : Vec Ideal S256x768 .bf16) (x3 : Vec Ideal S256x512 .bf16)
    (x6 : Vec Ideal S1x256 .f32) (h1 : S1024x768.Slices ![0, 256] S1024x256) (h2 : S1024x512.Slices ![0, 256] S1024x256)
    (h3 : S1x256.ShapeCasts S1x256) (h4 : S1x256.Broadcasts S1024x256) (p : Fin 1024) (q : Fin 256) :
    logistic (addf (addf (extractStridedSlice S1024x256 ![0, 256] (k0_pay2 (F := Ideal) x1 x2) h1)
        (extractStridedSlice S1024x256 ![0, 256] (k0_pay3 (F := Ideal) x0 x3) h2))
        (broadcastTo S1024x256 (shapeCast S1x256 x6 h3) h4)) (ix2 p q)
      = updateGate (fun k => x0 (ix2 p k)) (fun k => x1 (ix2 p k)) x2 x3 (fun j => x6 (ix2 0 j)) q := by
  show Ideal.logistic (extractStridedSlice S1024x256 ![0, 256] (k0_pay2 (F := Ideal) x1 x2) h1 (ix2 p q)
    + extractStridedSlice S1024x256 ![0, 256] (k0_pay3 (F := Ideal) x0 x3) h2 (ix2 p q)
    + broadcastTo S1024x256 (shapeCast S1x256 x6 h3) h4 (ix2 p q)) = _
  rw [slice768_256, slice512_256, bias_apply, pay2_apply, pay3_apply]
  rfl

/-! ### The candidate and the result -/

/-- The hyperbolic tangent the body computes is the candidate state. -/
theorem pay4_apply (x0 x1 : Vec Ideal S1024x256 .f32) (x2 : Vec Ideal S256x768 .bf16) (x3 : Vec Ideal S256x512 .bf16)
    (x5 : Vec Ideal S1x256 .f32) (x4 : Vec Ideal S256x256 .bf16) (x7 : Vec Ideal S1x256 .f32) (p : Fin 1024) (q : Fin 256) :
    k0_pay4 (F := Ideal) x0 x1 x2 x3 x5 x4 x7 (ix2 p q)
      = candidate (fun k => x0 (ix2 p k)) (fun k => x1 (ix2 p k)) x2 x3 x4 (fun j => x5 (ix2 0 j)) (fun j => x7 (ix2 0 j)) q := by
  unfold k0_pay4 candidate
  show Ideal.tanh (extractStridedSlice S1024x256 ![0, 512] (k0_pay2 (F := Ideal) x1 x2) slices_S1024x768_o0_512_S1024x256 (ix2 p q)
    + matmul dot_S1024x256_S256x256_S1024x256_1_0_0_1_n_n none
        (truncf .bf16 (mulf x0 (logistic (addf (addf
          (extractStridedSlice S1024x256 ![0, 0] (k0_pay2 (F := Ideal) x1 x2) slices_S1024x768_o0_0_S1024x256)
          (extractStridedSlice S1024x256 ![0, 0] (k0_pay3 (F := Ideal) x0 x3) slices_S1024x512_o0_0_S1024x256))
          (broadcastTo S1024x256 (shapeCast S1x256 x5 shapeCasts_S1x256_S1x256) broadcasts_S1x256_S1024x256)))) bitsLt_bf16_f32)
        (shapeCast S256x256 x4 shapeCasts_S256x256_S256x256) (constant (F := Ideal) S1024x256 .f32 0x00000000#32) (ix2 p q)
    + broadcastTo S1024x256 (shapeCast S1x256 x7 shapeCasts_S1x256_S1x256) broadcasts_S1x256_S1024x256 (ix2 p q)) = _
  rw [slice768_512, pay2_apply, bias_apply, shapeCast_self x4, mat256_apply]
  refine congrArg Ideal.tanh (congrArg (· + x7 (ix2 0 q)) (congrArg (xproj (fun k => x1 (ix2 p k)) x2 ⟨512 + q.val, by omega⟩ + ·) ?_))
  refine Finset.sum_congr rfl fun k _ => ?_
  refine congrArg (· * x4 (ix2 k q)) ?_
  exact congrArg (x0 (ix2 p k) * ·) (reset_apply x0 x1 x2 x3 x5 _ _ _ _ p k)

/-- The stored value at row `p`, column `q` of the block is the cell on row `p` of the two state blocks. -/
theorem pay_apply (x0 x1 : Vec Ideal S1024x256 .f32) (x2 : Vec Ideal S256x768 .bf16) (x3 : Vec Ideal S256x512 .bf16)
    (x4 : Vec Ideal S256x256 .bf16) (x5 x6 x7 : Vec Ideal S1x256 .f32) (p : Fin 1024) (q : Fin 256) :
    k0_pay1 (F := Ideal) (k0_pay4 x0 x1 x2 x3 x5 x4 x7) (k0_pay5 x0 x1 x2 x3 x5 x6 x4 x7) (ix2 p q)
      = gruRow (fun k => x0 (ix2 p k)) (fun k => x1 (ix2 p k)) x2 x3 x4
          (fun j => x5 (ix2 0 j)) (fun j => x6 (ix2 0 j)) (fun j => x7 (ix2 0 j)) q := by
  unfold k0_pay1 k0_pay5 gruRow
  show k0_pay4 (F := Ideal) x0 x1 x2 x3 x5 x4 x7 (ix2 p q)
    + logistic (addf (addf (extractStridedSlice S1024x256 ![0, 256] (k0_pay2 (F := Ideal) x1 x2) slices_S1024x768_o0_256_S1024x256)
        (extractStridedSlice S1024x256 ![0, 256] (k0_pay3 (F := Ideal) x0 x3) slices_S1024x512_o0_256_S1024x256))
        (broadcastTo S1024x256 (shapeCast S1x256 x6 shapeCasts_S1x256_S1x256) broadcasts_S1x256_S1024x256)) (ix2 p q)
      * (x0 (ix2 p q) - k0_pay4 (F := Ideal) x0 x1 x2 x3 x5 x4 x7 (ix2 p q)) = _
  rw [pay4_apply, update_apply]

end Cert.KernelIdeal.Payload

end
-- ==== Proof.KernelValue.lean ====
/-
  What the idealized kernel program leaves in its result array: the gated recurrent cell of `Spec.lean`, entry
  by entry, of the argument arrays.

  The region finds the joined input weights, the joined gate weights and the candidate's weights in the buffers the
  host operations wrote (a change of float format is the identity on the extended reals, so they are the joined
  matrices themselves), and each bias as one row. At grid point t the two state windows hold rows
  [1024 t, 1024 t + 1024) of their arrays and every other input window holds its whole array; the body's stored
  value at row p, column q of the block is the cell on row p of the two state blocks (`KernelPayload.lean`), which
  is the cell on row 1024 t + p of the state arrays; so point t writes back block t of the cell's whole-array
  function. The 64 blocks tile the 65536 rows (row b is in block b / 1024), so the array ends at that function.
-/
import proofs.«145229_j75531294867991_1_alg».proof.Proof.FrameKernelIdeal
import proofs.«145229_j75531294867991_1_alg».proof.Proof.KernelPayload
import proofs.«145229_j75531294867991_1_alg».proof.Proof.Spec
import Idealize.ShloMosaic.Lib.Pipeline.Value
import Idealize.ShloMosaic.Lib.StableHlo.Run
import Idealize.ShloMosaic.Lib.ValueIdx

set_option maxRecDepth 16384

noncomputable section

namespace Cert.KernelIdeal.KValue

open Cert.KernelIdeal Cert.KernelIdeal.Gen Cert.KernelIdeal.Hand Idealize.ShloMosaic Idealize.ShloMosaic.TcCoe Idealize.SL.Sem
open Idealize.ShloMosaic.Pipeline (Dat)
open Idealize.ShloMosaic.ValueIdx Cert.GruSpec

variable (m : (ℓ : Loc nD τ sig) → Buf (Elt Ideal) ℓ) (ρ : Dev nD → PrngReg)

/-! ## The buffers the host operations wrote, as the region finds them -/

/-- The three input weight matrices side by side. -/
def Wc (c : Dev nD) : S256x768.Idx → EReal :=
  concatenate S256x768 1 [⟨S256x256, m ((c : Thread nD τ).loc main_arg2)⟩, ⟨S256x256, m ((c : Thread nD τ).loc main_arg3)⟩, ⟨S256x256, m ((c : Thread nD τ).loc main_arg4)⟩] concatenates_S256x256_S256x256_S256x256_S256x768_d1

/-- The two gate weight matrices of the hidden state side by side. -/
def Uc (c : Dev nD) : S256x512.Idx → EReal :=
  concatenate S256x512 1 [⟨S256x256, m ((c : Thread nD τ).loc main_arg5)⟩, ⟨S256x256, m ((c : Thread nD τ).loc main_arg6)⟩] concatenates_S256x256_S256x256_S256x512_d1

/-- The result array's function of the arguments. -/
def Gout (c : Dev nD) : S65536x256.Idx → EReal :=
  gruOut (m ((c : Thread nD τ).loc main_arg0)) (m ((c : Thread nD τ).loc main_arg1)) (Wc m c) (Uc m c)
    (m ((c : Thread nD τ).loc main_arg7)) (m ((c : Thread nD τ).loc main_arg8)) (m ((c : Thread nD τ).loc main_arg9))
    (m ((c : Thread nD τ).loc main_arg10))

theorem V_v1 (c : Dev nD) : (V m c main_v1 : S256x768.Idx → EReal) = Wc m c := by
  dsimp only [V, hostOps0]; after_results; rfl

theorem V_v3 (c : Dev nD) : (V m c main_v3 : S256x512.Idx → EReal) = Uc m c := by
  dsimp only [V, hostOps0]; after_results; rfl

theorem V_v4 (c : Dev nD) : (V m c main_v4 : S256x256.Idx → EReal) = m ((c : Thread nD τ).loc main_arg7) := by
  dsimp only [V, hostOps0]; after_results; rfl

theorem V_v5 (c : Dev nD) : (V m c main_v5 : S1x256.Idx → EReal) = shapeCast S1x256 (m ((c : Thread nD τ).loc main_arg8)) shapeCasts_S256_S1x256 := by
  dsimp only [V, hostOps0]; after_results; rfl

theorem V_v6 (c : Dev nD) : (V m c main_v6 : S1x256.Idx → EReal) = shapeCast S1x256 (m ((c : Thread nD τ).loc main_arg9)) shapeCasts_S256_S1x256 := by
  dsimp only [V, hostOps0]; after_results; rfl

theorem V_v7 (c : Dev nD) : (V m c main_v7 : S1x256.Idx → EReal) = shapeCast S1x256 (m ((c : Thread nD τ).loc main_arg10)) shapeCasts_S256_S1x256 := by
  dsimp only [V, hostOps0]; after_results; rfl

/-- A vector of 256 entries reshaped to one row, read at column `j` of that row, is the vector's entry `j`. -/
theorem bias_row (b : S256.Idx → EReal) (j : Fin 256) :
    shapeCast S1x256 b shapeCasts_S256_S1x256 (ix2 (0 : Fin 1) j) = b (ix1 j) := by
  refine (shapeCast_addUnit_apply (n := 1) ![256] b shapeCasts_S256_S1x256 (ix2 (0 : Fin 1) j)).trans ?_
  exact congrArg b (funext fun a => by match a with | ⟨0, _⟩ => rfl)

/-! ## The schedule: which block each window holds at a point -/

theorem hz : (![0, 0] : Fin 2 → Nat) = fun _ => 0 := funext fun a => by fin_cases a <;> rfl

/-- The two state windows and the result window are on row block `t`; every other window is on its one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- Every row block is some point's. -/
theorem idx_onto : ∀ q0 : Fin 64, ∃ t : Fin cfg0.N, win0_8.index t = ![q0.val, 0] :=
  (by decide +kernel : ∀ q0 : Fin 64, ∃ t : Fin grid0.N, win0_8.index t = ![q0.val, 0])

/-! ## One block of the result -/

/-- Over any blocks that are the rows and whole arrays they should be: the stored value at (p, q) is the cell's
    whole-array function at the entry `i` whose row the state blocks' row `p` is and whose column is `q`. -/
theorem block_eq (jh mg : S65536x256.Idx → EReal) (W : S256x768.Idx → EReal) (U : S256x512.Idx → EReal) (Uh : S256x256.Idx → EReal)
    (br bz bh : S256.Idx → EReal)
    (x0 x1 : Vec Ideal S1024x256 .f32) (x2 : Vec Ideal S256x768 .bf16) (x3 : Vec Ideal S256x512 .bf16) (x4 : Vec Ideal S256x256 .bf16)
    (x5 x6 x7 : Vec Ideal S1x256 .f32) (i : S65536x256.Idx) (p : Fin 1024) (q : Fin 256)
    (h0 : ∀ k : Fin 256, x0 (ix2 p k) = jh (ix2 (i 0) k)) (h1 : ∀ k : Fin 256, x1 (ix2 p k) = mg (ix2 (i 0) k))
    (h2 : x2 = W) (h3 : x3 = U) (h4 : x4 = Uh)
    (h5 : ∀ j : Fin 256, x5 (ix2 (0 : Fin 1) j) = br (ix1 j)) (h6 : ∀ j : Fin 256, x6 (ix2 (0 : Fin 1) j) = bz (ix1 j))
    (h7 : ∀ j : Fin 256, x7 (ix2 (0 : Fin 1) j) = bh (ix1 j)) (hq : q = i 1) :
    k0_pay1 (F := Ideal) (k0_pay4 x0 x1 x2 x3 x5 x4 x7) (k0_pay5 x0 x1 x2 x3 x5 x6 x4 x7) (ix2 p q)
      = gruOut jh mg W U Uh br bz bh i := by
  rw [Payload.pay_apply]
  unfold gruOut
  rw [funext h0, funext h1, h2, h3, h4, funext h5, funext h6, funext h7, hq]

/-! ## Each input window's block at point `t`, read off its array -/

/-- Row `p` of the hidden-state block is row `1024 t + p` of the array: the row of the result block's entry (p, q). -/
theorem blk0_row (c : Dev nD) (t : Fin cfg0.N) (p : Fin 1024) (q k : Fin 256) :
    iblk m c 0 t (ix2 p k)
      = m ((c : Thread nD τ).loc main_arg0) (ix2 ((((cfg0.win 8).blk t).view.emb (ix2 p q)) 0) k) := by
  obtain ⟨e00, e01, e10, e11, e20, e21, e30, e31, e40, e41, e50, e51, e60, e61, e70, e71, e80, e81⟩ := idx_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 1024 + 1 * p.val = win0_8.index t (0 : Fin 2) * 1024 + 1 * p.val; omega
  | ⟨1, _⟩ => show win0_0.index t (1 : Fin 2) * 256 + 1 * k.val = k.val; omega

/-- The same for the input-state block. -/
theorem blk1_row (c : Dev nD) (t : Fin cfg0.N) (p : Fin 1024) (q k : Fin 256) :
    iblk m c 1 t (ix2 p k)
      = m ((c : Thread nD τ).loc main_arg1) (ix2 ((((cfg0.win 8).blk t).view.emb (ix2 p q)) 0) k) := by
  obtain ⟨e00, e01, e10, e11, e20, e21, e30, e31, e40, e41, e50, e51, e60, e61, e70, e71, e80, e81⟩ := idx_facts t
  show V m c main_arg1 (((cfg0.win 1).blk t).view.emb (ix2 p k)) = _
  rw [V_main_arg1]
  refine congrArg _ (funext fun a => Fin.ext ?_)
  match a with
  | ⟨0, _⟩ => show win0_1.index t (0 : Fin 2) * 1024 + 1 * p.val = win0_8.index t (0 : Fin 2) * 1024 + 1 * p.val; omega
  | ⟨1, _⟩ => show win0_1.index t (1 : Fin 2) * 256 + 1 * k.val = k.val; omega

/-- The input-weight window holds the whole joined matrix at every point. -/
theorem blk2_whole (c : Dev nD) (t : Fin cfg0.N) : (iblk m c 2 t : S256x768.Idx → EReal) = Wc m c := by
  obtain ⟨e00, e01, e10, e11, e20, e21, e30, e31, e40, e41, e50, e51, e60, e61, e70, e71, e80, e81⟩ := idx_facts t
  refine Eq.trans (funext fun y => ?_) (V_v1 m c)
  show V m c main_v1 (((cfg0.win 2).blk t).view.emb y) = V m c main_v1 y
  refine congrArg _ (funext fun a => Fin.ext ?_)
  match a with
  | ⟨0, _⟩ => show win0_2.index t (0 : Fin 2) * 256 + 1 * (y 0).val = (y 0).val; omega
  | ⟨1, _⟩ => show win0_2.index t (1 : Fin 2) * 768 + 1 * (y 1).val = (y 1).val; omega

/-- The gate-weight window holds the whole joined matrix at every point. -/
theorem blk3_whole (c : Dev nD) (t : Fin cfg0.N) : (iblk m c 3 t : S256x512.Idx → EReal) = Uc m c := by
  obtain ⟨e00, e01, e10, e11, e20, e21, e30, e31, e40, e41, e50, e51, e60, e61, e70, e71, e80, e81⟩ := idx_facts t
  refine Eq.trans (funext fun y => ?_) (V_v3 m c)
  show V m c main_v3 (((cfg0.win 3).blk t).view.emb y) = V m c main_v3 y
  refine congrArg _ (funext fun a => Fin.ext ?_)
  match a with
  | ⟨0, _⟩ => show win0_3.index t (0 : Fin 2) * 256 + 1 * (y 0).val = (y 0).val; omega
  | ⟨1, _⟩ => show win0_3.index t (1 : Fin 2) * 512 + 1 * (y 1).val = (y 1).val; omega

/-- The candidate-weight window holds the whole matrix at every point. -/
theorem blk4_whole (c : Dev nD) (t : Fin cfg0.N) :
    (iblk m c 4 t : S256x256.Idx → EReal) = m ((c : Thread nD τ).loc main_arg7) := by
  obtain ⟨e00, e01, e10, e11, e20, e21, e30, e31, e40, e41, e50, e51, e60, e61, e70, e71, e80, e81⟩ := idx_facts t
  refine Eq.trans (funext fun y => ?_) (V_v4 m c)
  show V m c main_v4 (((cfg0.win 4).blk t).view.emb y) = V m c main_v4 y
  refine congrArg _ (funext fun a => Fin.ext ?_)
  match a with
  | ⟨0, _⟩ => show win0_4.index t (0 : Fin 2) * 256 + 1 * (y 0).val = (y 0).val; omega
  | ⟨1, _⟩ => show win0_4.index t (1 : Fin 2) * 256 + 1 * (y 1).val = (y 1).val; omega

/-- The reset bias window's one row is the bias vector. -/
theorem blk5_row (c : Dev nD) (t : Fin cfg0.N) (j : Fin 256) :
    iblk m c 5 t (ix2 (0 : Fin 1) j) = m ((c : Thread nD τ).loc main_arg8) (ix1 j) := by
  obtain ⟨e00, e01, e10, e11, e20, e21, e30, e31, e40, e41, e50, e51, e60, e61, e70, e71, e80, e81⟩ := idx_facts t
  refine Eq.trans ?_ ((congrFun (V_v5 m c) (ix2 (0 : Fin 1) j)).trans (bias_row _ j))
  show V m c main_v5 (((cfg0.win 5).blk t).view.emb (ix2 (0 : Fin 1) j)) = V m c main_v5 (ix2 (0 : Fin 1) j)
  refine congrArg _ (funext fun a => Fin.ext ?_)
  match a with
  | ⟨0, _⟩ => show win0_5.index t (0 : Fin 2) * 1 + 1 * 0 = 0; omega
  | ⟨1, _⟩ => show win0_5.index t (1 : Fin 2) * 256 + 1 * j.val = j.val; omega

/-- The update bias window's one row is the bias vector. -/
theorem blk6_row (c : Dev nD) (t : Fin cfg0.N) (j : Fin 256) :
    iblk m c 6 t (ix2 (0 : Fin 1) j) = m ((c : Thread nD τ).loc main_arg9) (ix1 j) := by
  obtain ⟨e00, e01, e10, e11, e20, e21, e30, e31, e40, e41, e50, e51, e60, e61, e70, e71, e80, e81⟩ := idx_facts t
  refine Eq.trans ?_ ((congrFun (V_v6 m c) (ix2 (0 : Fin 1) j)).trans (bias_row _ j))
  show V m c main_v6 (((cfg0.win 6).blk t).view.emb (ix2 (0 : Fin 1) j)) = V m c main_v6 (ix2 (0 : Fin 1) j)
  refine congrArg _ (funext fun a => Fin.ext ?_)
  match a with
  | ⟨0, _⟩ => show win0_6.index t (0 : Fin 2) * 1 + 1 * 0 = 0; omega
  | ⟨1, _⟩ => show win0_6.index t (1 : Fin 2) * 256 + 1 * j.val = j.val; omega

/-- The candidate bias window's one row is the bias vector. -/
theorem blk7_row (c : Dev nD) (t : Fin cfg0.N) (j : Fin 256) :
    iblk m c 7 t (ix2 (0 : Fin 1) j) = m ((c : Thread nD τ).loc main_arg10) (ix1 j) := by
  obtain ⟨e00, e01, e10, e11, e20, e21, e30, e31, e40, e41, e50, e51, e60, e61, e70, e71, e80, e81⟩ := idx_facts t
  refine Eq.trans ?_ ((congrFun (V_v7 m c) (ix2 (0 : Fin 1) j)).trans (bias_row _ j))
  show V m c main_v7 (((cfg0.win 7).blk t).view.emb (ix2 (0 : Fin 1) j)) = V m c main_v7 (ix2 (0 : Fin 1) j)
  refine congrArg _ (funext fun a => Fin.ext ?_)
  match a with
  | ⟨0, _⟩ => show win0_7.index t (0 : Fin 2) * 1 + 1 * 0 = 0; omega
  | ⟨1, _⟩ => show win0_7.index t (1 : Fin 2) * 256 + 1 * j.val = j.val; omega

/-! ## From the blocks to the array -/

/-- What point `t` writes back is block `t` of the cell's whole-array function. -/
theorem flushed_eq (c : Dev nD) (t : Fin cfg0.N) :
    (dats m 0 c).flushed 8 t = ((cfg0.win 8).blk t).view.read (Elt Ideal) (Gout m c) := by
  show (cfg0.win 8).cut (grid0.coords t) ((dats m 0 c).after 8 t) = _
  rw [after0_8]
  unfold out0_8
  rw [View.canon_unit_zero hz]
  simp only [View.ld_unit_zero (S := S1024x256) hz, View.ld_unit_zero (S := S256x768) hz, View.ld_unit_zero (S := S256x512) hz,
    View.ld_unit_zero (S := S256x256) hz, View.ld_unit_zero (S := S1x256) hz]
  obtain ⟨e00, e01, e10, e11, e20, e21, e30, e31, e40, e41, e50, e51, e60, e61, e70, e71, e80, e81⟩ := idx_facts t
  funext j
  obtain ⟨p, q, rfl⟩ : ∃ (p : Fin 1024) (q : Fin 256), j = ix2 p q := ⟨j 0, j 1, eq_ix2 j⟩
  show k0_pay1 (F := Ideal)
        (k0_pay4 (iblk m c 0 t) (iblk m c 1 t) (iblk m c 2 t) (iblk m c 3 t) (iblk m c 5 t) (iblk m c 4 t) (iblk m c 7 t))
        (k0_pay5 (iblk m c 0 t) (iblk m c 1 t) (iblk m c 2 t) (iblk m c 3 t) (iblk m c 5 t) (iblk m c 6 t) (iblk m c 4 t) (iblk m c 7 t))
        (ix2 p q)
      = Gout m c (((cfg0.win 8).blk t).view.emb (ix2 p q))
  unfold Gout
  refine block_eq _ _ _ _ _ _ _ _ (iblk m c 0 t) (iblk m c 1 t) (iblk m c 2 t) (iblk m c 3 t) (iblk m c 4 t) (iblk m c 5 t)
    (iblk m c 6 t) (iblk m c 7 t) _ p q (blk0_row m c t p q) (blk1_row m c t p q) (blk2_whole m c t) (blk3_whole m c t)
    (blk4_whole m c t) (blk5_row m c t) (blk6_row m c t) (blk7_row m c t) (Fin.ext ?_)
  show q.val = win0_8.index t (1 : Fin 2) * 256 + 1 * q.val
  omega

/-- An entry of the array is in point `t`'s block iff each coordinate is in the block's range on its axis. -/
theorem mem_blk8 (t : Fin cfg0.N) (i : S65536x256.Idx) :
    i ∈ ((cfg0.win 8).blk t).view.set ↔ ∀ a : Fin 2, win0_8.index t a * S1024x256.size a ≤ (i a).val ∧ (i a).val < win0_8.index t a * S1024x256.size a + S1024x256.size a := by
  show i ∈ ((View.whole main_v8).slice (win0_8.rect t)).set ↔ _
  rw [View.set_slice_whole, Rect.mem_set_unit]
  exact Iff.rfl

/-- Every entry is in some point's block: row `b` is in row block `b / 1024`. -/
theorem cover8 (i : S65536x256.Idx) :
    ∃ t : Fin cfg0.N, (cfg0.win 8).flush t = true ∧ i ∈ ((cfg0.win 8).blk t).view.set := by
  have hi0 : (i 0).val < 65536 := (i 0).isLt
  have hi1 : (i 1).val < 256 := (i 1).isLt
  obtain ⟨t, ht⟩ := idx_onto ⟨(i 0).val / 1024, by omega⟩
  have q0 : win0_8.index t (0 : Fin 2) = (i 0).val / 1024 := congrFun ht 0
  have q1 : win0_8.index t (1 : Fin 2) = 0 := congrFun ht 1
  refine ⟨t, flush0_8 t, ?_⟩
  rw [mem_blk8]
  intro a
  match a with
  | ⟨0, _⟩ => show win0_8.index t (0 : Fin 2) * 1024 ≤ (i 0).val ∧ (i 0).val < win0_8.index t (0 : Fin 2) * 1024 + 1024; omega
  | ⟨1, _⟩ => show win0_8.index t (1 : Fin 2) * 256 ≤ (i 1).val ∧ (i 1).val < win0_8.index t (1 : Fin 2) * 256 + 256; omega

/-- The result array after the run is the cell's whole-array function of the arguments. -/
theorem final8 (c : Dev nD) : (dats m 0 c).arrAt 8 cfg0.N = Gout m c :=
  (dats m 0 c).arrAt_eq_of_cover 8 (Gout m c) (fun t _ => flushed_eq m c t) cover8

/-! ## The run, read -/

/-- Every weakly fair execution of @main terminates with the result array at the cell's function of the arguments
    and the arguments unchanged. -/
theorem run : θ_run defs (onTc (τ := τ) (main (F := Ideal))) ⟨m, fun _ => 0, ρ⟩ fun r => ∀ c : Dev nD,
      r.2.mem ((c.tc : Thread nD τ).loc main_v8) = Gout m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨((h c).1 8).trans (final8 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩)
    (run_main m ρ)

end Cert.KernelIdeal.KValue

end
-- ==== Proof.RefSpec.lean ====
/-
  The reference's result, read one entry at a time, is the gated recurrent cell of `Spec.lean` on the row of that
  entry: its two matrix products with the joined weights are the row's input and hidden projections, its three
  column slices pick the reset, update and candidate thirds, a bias broadcast over the rows is the bias at the
  column, its negate / exponential / add 1 / divide 1 is the logistic function, and its third product, of the state
  times the reset gate with the candidate's weights, is the sum in the candidate.
-/
import proofs.«145229_j75531294867991_1_alg».proof.Proof.Gen.ReferenceIdeal.Read
import proofs.«145229_j75531294867991_1_alg».proof.Proof.Spec

noncomputable section

namespace Cert.ReferenceIdeal.RefSpec

open Cert.ReferenceIdeal Cert.ReferenceIdeal.Gen Cert.ReferenceIdeal.Read Idealize.ShloMosaic Idealize.ShloMosaic.TcCoe
open Idealize.ShloMosaic.ValueIdx Cert.GruSpec

/-! ## The two matrix products with the joined weights, read at a row and a column -/

/-- Entry (b, j) of the first product is the input projection of row b at column j. -/
theorem v2_at (x1 : (⟨S65536x256, .f32⟩ : BufTy).Contents (Elt Ideal)) (x2 x3 x4 : (⟨S256x256, .f32⟩ : BufTy).Contents (Elt Ideal))
    (b : Fin 65536) (j : Fin 768) :
    val_main_v2 (F := Ideal) x1 x2 x3 x4 (ix2 b j)
      = xproj (fun k => x1 (ix2 b k)) (val_main_v0 (F := Ideal) x2 x3 x4) j := by
  rw [val_main_v2_apply]
  unfold xproj
  refine Finset.sum_congr rfl fun k _ => ?_
  have el : lidx_main_v2 (ix2 b j) k = ix2 b k :=
    funext fun a => by match a with | ⟨0, _⟩ => rfl | ⟨1, _⟩ => rfl
  have er : ridx_main_v2 (ix2 b j) k = ix2 k j :=
    funext fun a => by match a with | ⟨0, _⟩ => rfl | ⟨1, _⟩ => rfl
  rw [el, er]

/-- Entry (b, j) of the second product is the hidden projection of row b at column j. -/
theorem v3_at (x0 : (⟨S65536x256, .f32⟩ : BufTy).Contents (Elt Ideal)) (x5 x6 : (⟨S256x256, .f32⟩ : BufTy).Contents (Elt Ideal))
    (b : Fin 65536) (j : Fin 512) :
    val_main_v3 (F := Ideal) x0 x5 x6 (ix2 b j)
      = hproj (fun k => x0 (ix2 b k)) (val_main_v1 (F := Ideal) x5 x6) j := by
  rw [val_main_v3_apply]
  unfold hproj
  refine Finset.sum_congr rfl fun k _ => ?_
  have el : lidx_main_v3 (ix2 b j) k = ix2 b k :=
    funext fun a => by match a with | ⟨0, _⟩ => rfl | ⟨1, _⟩ => rfl
  have er : ridx_main_v3 (ix2 b j) k = ix2 k j :=
    funext fun a => by match a with | ⟨0, _⟩ => rfl | ⟨1, _⟩ => rfl
  rw [el, er]

/-! ## The column slices: thirds of the first product, halves of the second -/

/-- Columns [0, 256) of the first product. -/
theorem v4_at (x1 : (⟨S65536x256, .f32⟩ : BufTy).Contents (Elt Ideal)) (x2 x3 x4 : (⟨S256x256, .f32⟩ : BufTy).Contents (Elt Ideal))
    (b : Fin 65536) (q : Fin 256) :
    val_main_v4 (F := Ideal) x1 x2 x3 x4 (ix2 b q)
      = xproj (fun k => x1 (ix2 b k)) (val_main_v0 (F := Ideal) x2 x3 x4) ⟨q.val, by omega⟩ := by
  rw [val_main_v4_apply]
  have e : idx_main_v4 (ix2 b q) = ix2 b (⟨q.val, by omega⟩ : Fin 768) :=
    funext fun a => by match a with | ⟨0, _⟩ => rfl | ⟨1, _⟩ => rfl
  rw [e, v2_at]

/-- Columns [256, 512) of the first product. -/
theorem v16_at (x1 : (⟨S65536x256, .f32⟩ : BufTy).Contents (Elt Ideal)) (x2 x3 x4 : (⟨S256x256, .f32⟩ : BufTy).Contents (Elt Ideal))
    (b : Fin 65536) (q : Fin 256) :
    val_main_v16 (F := Ideal) x1 x2 x3 x4 (ix2 b q)
      = xproj (fun k => x1 (ix2 b k)) (val_main_v0 (F := Ideal) x2 x3 x4) ⟨256 + q.val, by omega⟩ := by
  rw [val_main_v16_apply]
  have e : idx_main_v16 (ix2 b q) = ix2 b (⟨256 + q.val, by omega⟩ : Fin 768) :=
    funext fun a => by match a with | ⟨0, _⟩ => rfl | ⟨1, _⟩ => rfl
  rw [e, v2_at]

/-- Columns [512, 768) of the first product. -/
theorem v28_at (x1 : (⟨S65536x256, .f32⟩ : BufTy).Contents (Elt Ideal)) (x2 x3 x4 : (⟨S256x256, .f32⟩ : BufTy).Contents (Elt Ideal))
    (b : Fin 65536) (q : Fin 256) :
    val_main_v28 (F := Ideal) x1 x2 x3 x4 (ix2 b q)
      = xproj (fun k => x1 (ix2 b k)) (val_main_v0 (F := Ideal) x2 x3 x4) ⟨512 + q.val, by omega⟩ := by
  rw [val_main_v28_apply]
  have e : idx_main_v28 (ix2 b q) = ix2 b (⟨512 + q.val, by omega⟩ : Fin 768) :=
    funext fun a => by match a with | ⟨0, _⟩ => rfl | ⟨1, _⟩ => rfl
  rw [e, v2_at]

/-- Columns [0, 256) of the second product. -/
theorem v5_at (x0 : (⟨S65536x256, .f32⟩ : BufTy).Contents (Elt Ideal)) (x5 x6 : (⟨S256x256, .f32⟩ : BufTy).Contents (Elt Ideal))
    (b : Fin 65536) (q : Fin 256) :
    val_main_v5 (F := Ideal) x0 x5 x6 (ix2 b q)
      = hproj (fun k => x0 (ix2 b k)) (val_main_v1 (F := Ideal) x5 x6) ⟨q.val, by omega⟩ := by
  rw [val_main_v5_apply]
  have e : idx_main_v5 (ix2 b q) = ix2 b (⟨q.val, by omega⟩ : Fin 512) :=
    funext fun a => by match a with | ⟨0, _⟩ => rfl | ⟨1, _⟩ => rfl
  rw [e, v3_at]

/-- Columns [256, 512) of the second product. -/
theorem v17_at (x0 : (⟨S65536x256, .f32⟩ : BufTy).Contents (Elt Ideal)) (x5 x6 : (⟨S256x256, .f32⟩ : BufTy).Contents (Elt Ideal))
    (b : Fin 65536) (q : Fin 256) :
    val_main_v17 (F := Ideal) x0 x5 x6 (ix2 b q)
      = hproj (fun k => x0 (ix2 b k)) (val_main_v1 (F := Ideal) x5 x6) ⟨256 + q.val, by omega⟩ := by
  rw [val_main_v17_apply]
  have e : idx_main_v17 (ix2 b q) = ix2 b (⟨256 + q.val, by omega⟩ : Fin 512) :=
    funext fun a => by match a with | ⟨0, _⟩ => rfl | ⟨1, _⟩ => rfl
  rw [e, v3_at]

/-! ## A bias broadcast over the rows is the bias at the column -/

theorem v8_at (x8 : (⟨S256, .f32⟩ : BufTy).Contents (Elt Ideal)) (b : Fin 65536) (q : Fin 256) :
    val_main_v8 (F := Ideal) x8 (ix2 b q) = x8 (ix1 q) := by
  rw [val_main_v8_apply, val_main_v7_apply]
  have e : idx_main_v7 (idx_main_v8 (ix2 b q)) = ix1 q :=
    funext fun a => by match a with | ⟨0, _⟩ => rfl
  rw [e]

theorem v20_at (x9 : (⟨S256, .f32⟩ : BufTy).Contents (Elt Ideal)) (b : Fin 65536) (q : Fin 256) :
    val_main_v20 (F := Ideal) x9 (ix2 b q) = x9 (ix1 q) := by
  rw [val_main_v20_apply, val_main_v19_apply]
  have e : idx_main_v19 (idx_main_v20 (ix2 b q)) = ix1 q :=
    funext fun a => by match a with | ⟨0, _⟩ => rfl
  rw [e]

theorem v33_at (x10 : (⟨S256, .f32⟩ : BufTy).Contents (Elt Ideal)) (b : Fin 65536) (q : Fin 256) :
    val_main_v33 (F := Ideal) x10 (ix2 b q) = x10 (ix1 q) := by
  rw [val_main_v33_apply, val_main_v32_apply]
  have e : idx_main_v32 (idx_main_v33 (ix2 b q)) = ix1 q :=
    funext fun a => by match a with | ⟨0, _⟩ => rfl
  rw [e]

/-! ## The two gates -/

/-- The reset gate at (b, q): the logistic function of the sum of the first slices and the first bias. -/
theorem v15_at (x0 x1 : (⟨S65536x256, .f32⟩ : BufTy).Contents (Elt Ideal)) (x2 x3 x4 x5 x6 : (⟨S256x256, .f32⟩ : BufTy).Contents (Elt Ideal))
    (x8 : (⟨S256, .f32⟩ : BufTy).Contents (Elt Ideal)) (b : Fin 65536) (q : Fin 256) :
    val_main_v15 (F := Ideal) x0 x1 x2 x3 x4 x5 x6 x8 (ix2 b q)
      = resetGate (fun k => x0 (ix2 b k)) (fun k => x1 (ix2 b k)) (val_main_v0 (F := Ideal) x2 x3 x4)
          (val_main_v1 (F := Ideal) x5 x6) (fun q => x8 (ix1 q)) q := by
  rw [val_main_v15_apply, val_main_v14_apply, val_main_cst_0_apply, val_main_v13_apply, val_main_v12_apply,
    val_main_cst_apply, val_main_v11_apply, val_main_v10_apply]
  refine (host_logistic _).trans ?_
  rw [val_main_v9_apply, val_main_v6_apply, v4_at, v5_at, v8_at]
  rfl

/-- The update gate at (b, q): the same with the second slices and the second bias. -/
theorem v27_at (x0 x1 : (⟨S65536x256, .f32⟩ : BufTy).Contents (Elt Ideal)) (x2 x3 x4 x5 x6 : (⟨S256x256, .f32⟩ : BufTy).Contents (Elt Ideal))
    (x9 : (⟨S256, .f32⟩ : BufTy).Contents (Elt Ideal)) (b : Fin 65536) (q : Fin 256) :
    val_main_v27 (F := Ideal) x0 x1 x2 x3 x4 x5 x6 x9 (ix2 b q)
      = updateGate (fun k => x0 (ix2 b k)) (fun k => x1 (ix2 b k)) (val_main_v0 (F := Ideal) x2 x3 x4)
          (val_main_v1 (F := Ideal) x5 x6) (fun q => x9 (ix1 q)) q := by
  rw [val_main_v27_apply, val_main_v26_apply, val_main_cst_2_apply, val_main_v25_apply, val_main_v24_apply,
    val_main_cst_1_apply, val_main_v23_apply, val_main_v22_apply]
  refine (host_logistic _).trans ?_
  rw [val_main_v21_apply, val_main_v18_apply, v16_at, v17_at, v20_at]
  rfl

/-! ## The candidate -/

/-- The third product at (b, q): the sum over k of the state times the reset gate at (b, k), times the weight (k, q). -/
theorem v30_at (x0 x1 : (⟨S65536x256, .f32⟩ : BufTy).Contents (Elt Ideal)) (x2 x3 x4 x5 x6 x7 : (⟨S256x256, .f32⟩ : BufTy).Contents (Elt Ideal))
    (x8 : (⟨S256, .f32⟩ : BufTy).Contents (Elt Ideal)) (b : Fin 65536) (q : Fin 256) :
    val_main_v30 (F := Ideal) x0 x1 x2 x3 x4 x5 x6 x7 x8 (ix2 b q)
      = ∑ k : Fin 256, (x0 (ix2 b k) * resetGate (fun k => x0 (ix2 b k)) (fun k => x1 (ix2 b k)) (val_main_v0 (F := Ideal) x2 x3 x4)
          (val_main_v1 (F := Ideal) x5 x6) (fun q => x8 (ix1 q)) k) * x7 (ix2 k q) := by
  rw [val_main_v30_apply]
  refine Finset.sum_congr rfl fun k _ => ?_
  have el : lidx_main_v30 (ix2 b q) k = ix2 b k :=
    funext fun a => by match a with | ⟨0, _⟩ => rfl | ⟨1, _⟩ => rfl
  have er : ridx_main_v30 (ix2 b q) k = ix2 k q :=
    funext fun a => by match a with | ⟨0, _⟩ => rfl | ⟨1, _⟩ => rfl
  rw [el, er, val_main_v29_apply, v15_at]
  rfl

/-- The candidate at (b, q). -/
theorem v35_at (x0 x1 : (⟨S65536x256, .f32⟩ : BufTy).Contents (Elt Ideal)) (x2 x3 x4 x5 x6 x7 : (⟨S256x256, .f32⟩ : BufTy).Contents (Elt Ideal))
    (x8 x10 : (⟨S256, .f32⟩ : BufTy).Contents (Elt Ideal)) (b : Fin 65536) (q : Fin 256) :
    val_main_v35 (F := Ideal) x0 x1 x2 x3 x4 x5 x6 x7 x8 x10 (ix2 b q)
      = candidate (fun k => x0 (ix2 b k)) (fun k => x1 (ix2 b k)) (val_main_v0 (F := Ideal) x2 x3 x4)
          (val_main_v1 (F := Ideal) x5 x6) x7 (fun q => x8 (ix1 q)) (fun q => x10 (ix1 q)) q := by
  rw [val_main_v35_apply, val_main_v34_apply, val_main_v31_apply, v28_at, v30_at, v33_at]
  rfl

/-- The reference's last stage is the cell, entry by entry. -/
theorem ref_eq_spec (x0 x1 : (⟨S65536x256, .f32⟩ : BufTy).Contents (Elt Ideal)) (x2 x3 x4 x5 x6 x7 : (⟨S256x256, .f32⟩ : BufTy).Contents (Elt Ideal))
    (x8 x9 x10 : (⟨S256, .f32⟩ : BufTy).Contents (Elt Ideal)) :
    val_main_v38 (F := Ideal) x0 x1 x2 x3 x4 x5 x6 x7 x8 x9 x10
      = gruOut x0 x1 (val_main_v0 (F := Ideal) x2 x3 x4) (val_main_v1 (F := Ideal) x5 x6) x7 x8 x9 x10 := by
  funext i
  obtain ⟨b, q, rfl⟩ : ∃ (b : Fin 65536) (q : Fin 256), i = ix2 b q := ⟨i 0, i 1, eq_ix2 i⟩
  rw [val_main_v38_apply, val_main_v37_apply, val_main_v36_apply, v35_at, v27_at]
  rfl

end Cert.ReferenceIdeal.RefSpec

end
-- ==== Proof.lean ====
/-
  A single-step gated recurrent cell as one pipelined kernel, against its plain reference: both compute, for every
  row b and column q,
      o = c + z (h - c),   r = logistic (x_q + y_q + b_r),   z = logistic (x_{256+q} + y_{256+q} + b_z),
      c = tanh (x_{512+q} + sum_k (h_k r_k) U_h[k, q] + b_h),
  where x is the row of the input state times the three input weight matrices laid side by side and y the row of the
  hidden state h times the two gate weight matrices laid side by side (`Proof/Spec.lean`).

  The kernel works on blocks of 1024 rows, with the weights held whole in every block, and feeds its products with a
  narrower float format; on the extended reals a change of format is the identity, a product into a zero accumulator
  and the reference's product are the same sum, and the kernel's logistic function is the reference's
  1 / (1 + exp (-x)). Both programs join the weights, take the products, slice the thirds and add the biases in the
  same order, so the two results meet term by term with no law of the extended reals beyond that, and the
  precondition is never opened.

  * the frames of the two kernel programs: `Proof/FrameKernel.lean`, `Proof/FrameKernelIdeal.lean`; the reference's
    frame is its run with the result dropped;
  * no operation was rewritten by the idealization, so there is nothing to preserve;
  * the kernel's result array is the cell's whole-array function of the arguments (`Proof/KernelPayload.lean`,
    `Proof/KernelValue.lean`), and so is the reference's (`Proof/RefSpec.lean`); from memories that agree on the
    arguments the two functions are one.
-/
import proofs.«145229_j75531294867991_1_alg».proof.Defs
import proofs.«145229_j75531294867991_1_alg».proof.Proof.Gen.Kernel
import proofs.«145229_j75531294867991_1_alg».proof.Proof.Gen.KernelIdeal
import proofs.«145229_j75531294867991_1_alg».proof.Proof.Gen.ReferenceIdeal
import proofs.«145229_j75531294867991_1_alg».proof.Proof.Gen.Pre_finite_inputs
import proofs.«145229_j75531294867991_1_alg».proof.Proof.Gen.ReferenceIdeal.Run
import proofs.«145229_j75531294867991_1_alg».proof.Proof.Gen.ReferenceIdeal.Read
import proofs.«145229_j75531294867991_1_alg».proof.Proof.FrameKernel
import proofs.«145229_j75531294867991_1_alg».proof.Proof.FrameKernelIdeal
import proofs.«145229_j75531294867991_1_alg».proof.Proof.KernelValue
import proofs.«145229_j75531294867991_1_alg».proof.Proof.RefSpec
import Idealize.ShloMosaic.Adequacy
import Idealize.ShloMosaic.Init

noncomputable section

namespace Cert.Proof

open Idealize.ShloMosaic Idealize.SL.Sem

theorem frame_kernel : Cert.frame_Kernel := fun m ρ _ => Cert.Kernel.Hand.frame m ρ

theorem frame_kernelIdeal : Cert.frame_KernelIdeal := fun m ρ _ => Cert.KernelIdeal.Hand.frame m ρ

/-- The reference's run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both result arrays are the cell's whole-array function of arguments that agree. -/
theorem algebraic : Cert.algebraic_KernelIdeal_ReferenceIdeal := by
  intro m ρ m' ρ' _ hagree
  refine ⟨fun c => Cert.KernelIdeal.KValue.Gout m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v38_eq, Cert.ReferenceIdeal.RefSpec.ref_eq_spec]
  obtain ⟨h0, h1, h2, h3, h4, h5, h6, h7, h8, h9, h10⟩ := hagree c
  rw [h0, h1, h2, h3, h4, h5, h6, h7, h8, h9, h10]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
